-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x512x512 : Shape := ⟨4, ![32, 2, 512, 512]⟩
abbrev S1x2x251x251 : Shape := ⟨4, ![1, 2, 251, 251]⟩
abbrev S_ : Shape := ⟨0, ![]⟩

class Facts : Prop where
  bcast_S_S32x2x512x512 : S_.BroadcastsInDim S32x2x512x512 (![] : Fin 0 → Fin S32x2x512x512.rank)
  reducesTo_S32x2x512x512_S_d0_1_2_3 : S32x2x512x512.ReducesTo [0, 1, 2, 3] S_
  h_S_ : 0 < S_.numel
  bcast_S_S1x2x251x251 : S_.BroadcastsInDim S1x2x251x251 (![] : Fin 0 → Fin S1x2x251x251.rank)
  reducesTo_S1x2x251x251_S_d0_1_2_3 : S1x2x251x251.ReducesTo [0, 1, 2, 3] S_

variable [Facts]

def fn {F : FTy → Type} [FloatOps F] (main_arg0 : FVec F S32x2x512x512 .f32) (main_arg1 : FVec F S1x2x251x251 .f32) : IVec S_ 1 :=
  let main_v0 : FVec F S32x2x512x512 .f32 := Host.absf main_arg0
  let main_cst : FVec F S_ .f32 := constant S_ .f32 0x7F800000#32
  let main_v1 : FVec F S32x2x512x512 .f32 := broadcastInDim S32x2x512x512 ![] bcast_S_S32x2x512x512 main_cst
  let main_v2 : IVec S32x2x512x512 1 := cmpf .olt main_v0 main_v1
  let main_c : IVec S_ 1 := constantI S_ 1 1#1
  let main_v3 : IVec S_ 1 := (fun x v => Host.reduce IntOp.andi x v reducesTo_S32x2x512x512_S_d0_1_2_3 h_S_) main_v2 main_c
  let main_v4 : FVec F S1x2x251x251 .f32 := Host.absf main_arg1
  let main_cst_0 : FVec F S_ .f32 := constant S_ .f32 0x7F800000#32
  let main_v5 : FVec F S1x2x251x251 .f32 := broadcastInDim S1x2x251x251 ![] bcast_S_S1x2x251x251 main_cst_0
  let main_v6 : IVec S1x2x251x251 1 := cmpf .olt main_v4 main_v5
  let main_c_1 : IVec S_ 1 := constantI S_ 1 1#1
  let main_v7 : IVec S_ 1 := (fun x v => Host.reduce IntOp.andi x v reducesTo_S1x2x251x251_S_d0_1_2_3 h_S_) main_v6 main_c_1
  let main_v8 : IVec S_ 1 := andi main_v3 main_v7
  main_v8
-- ==== Kernel.lean ====
abbrev S32x2x512x512 : Shape := ⟨4, ![32, 2, 512, 512]⟩
abbrev S1x2x251x251 : Shape := ⟨4, ![1, 2, 251, 251]⟩
abbrev S2x251x251 : Shape := ⟨3, ![2, 251, 251]⟩
abbrev S_ : Shape := ⟨0, ![]⟩
abbrev S2x256x256 : Shape := ⟨3, ![2, 256, 256]⟩
abbrev S512x256 : Shape := ⟨2, ![512, 256]⟩
abbrev S32x1x512x512 : Shape := ⟨4, ![32, 1, 512, 512]⟩
abbrev S32x512x512 : Shape := ⟨3, ![32, 512, 512]⟩
abbrev S16384x512 : Shape := ⟨2, ![16384, 512]⟩
abbrev S8x512 : Shape := ⟨2, ![8, 512]⟩
abbrev S256x1 : Shape := ⟨2, ![256, 1]⟩
abbrev S1x512 : Shape := ⟨2, ![1, 512]⟩
abbrev S512 : Shape := ⟨1, ![512]⟩
abbrev S256x512 : Shape := ⟨2, ![256, 512]⟩
abbrev S512x512 : Shape := ⟨2, ![512, 512]⟩

abbrev nBuf : Space → Nat
  | .hbm => 22
  | .vmem => 9
  | .smem => 0
  | _ => 0

abbrev bufTy : (tb : Table) → Fin (tcTables nBuf tb) → BufTy
  | .hbm, ⟨0, _⟩ => ⟨S32x2x512x512, .f32⟩
  | .hbm, ⟨1, _⟩ => ⟨S1x2x251x251, .f32⟩
  | .hbm, ⟨2, _⟩ => ⟨S2x251x251, .f32⟩
  | .hbm, ⟨3, _⟩ => ⟨S_, .i32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S512x256, .f32⟩
  | .hbm, ⟨8, _⟩ => ⟨S512x256, .bf16⟩
  | .hbm, ⟨9, _⟩ => ⟨S32x1x512x512, .f32⟩
  | .hbm, ⟨10, _⟩ => ⟨S32x512x512, .f32⟩
  | .hbm, ⟨11, _⟩ => ⟨S16384x512, .f32⟩
  | .hbm, ⟨12, _⟩ => ⟨S32x1x512x512, .f32⟩
  | .hbm, ⟨13, _⟩ => ⟨S32x512x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S32x512x512, .f32⟩
  | .hbm, ⟨18, _⟩ => ⟨S32x512x512, .f32⟩
  | .hbm, ⟨19, _⟩ => ⟨S32x1x512x512, .f32⟩
  | .hbm, ⟨20, _⟩ => ⟨S32x1x512x512, .f32⟩
  | .hbm, ⟨21, _⟩ => ⟨S32x2x512x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S512x256, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | _, _ => ⟨S32x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x2x251x251_S2x251x251 : S1x2x251x251.ShapeCasts S2x251x251
  pads_S2x251x251_S2x256x256_000_050_050 : S2x251x251.Pads (![0, 0, 0] : Fin 3 → Nat) ![0, 5, 5] ![0, 0, 0] S2x256x256
  h_S_ : 0 < S_.numel
  transposes_S2x256x256_S2x256x256_0_2_1 : S2x256x256.Transposes [0, 2, 1] S2x256x256
  shapeCasts_S2x256x256_S512x256 : S2x256x256.ShapeCasts S512x256
  bitsLt_bf16_f32 : FTy.bits .bf16 < FTy.bits .f32
  slices_S32x2x512x512_S32x1x512x512_0_0_0_0 : S32x2x512x512.Slices ![0, 0, 0, 0] S32x1x512x512
  shapeCasts_S32x1x512x512_S32x512x512 : S32x1x512x512.ShapeCasts S32x512x512
  shapeCasts_S32x512x512_S16384x512 : S32x512x512.ShapeCasts S16384x512
  slices_S32x2x512x512_S32x1x512x512_0_1_0_0 : S32x2x512x512.Slices ![0, 1, 0, 0] S32x1x512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S256x1_d0_w32 : S256x1.Iotas .tc 32 [0]
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S256x1_S256x512 : S256x1.Broadcasts S256x512
  broadcasts_S1x512_S256x512 : S1x512.Broadcasts S256x512
  shapeCasts_S1x512_S1x512 : S1x512.ShapeCasts S1x512
  slices_S512x512_o0_0_S256x512 : S512x512.Slices ![0, 0] S256x512
  slices_S512x512_o256_0_S256x512 : S512x512.Slices ![256, 0] S256x512
  reduces_S256x512_S512 : S256x512.Reduces [0] S512
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  shapeCasts_S16384x512_S32x512x512 : S16384x512.ShapeCasts S32x512x512
  bcast_S32x512x512_S32x1x512x512_0_2_3 : S32x512x512.BroadcastsInDim S32x1x512x512 (![0, 2, 3] : Fin 3 → Fin S32x1x512x512.rank)
  concatenates_S32x1x512x512_S32x1x512x512_S32x2x512x512_d1 : Shape.Concatenates [S32x1x512x512, S32x1x512x512] S32x2x512x512 1
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S16384x512.size a
  hwx0_0 : ∀ i : grid0.Coords, EltTy.bits .f32 = 32 ∨ (Rect.block (s := S16384x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S16384x512.size a
  hwx0_1 : ∀ i : grid0.Coords, EltTy.bits .f32 = 32 ∨ (Rect.block (s := S16384x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S16384x512.size a
  hwx0_3 : ∀ i : grid0.Coords, EltTy.bits .f32 = 32 ∨ (Rect.block (s := S16384x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S16384x512.size a
  hwx0_4 : ∀ i : grid0.Coords, EltTy.bits .f32 = 32 ∨ (Rect.block (s := S16384x512) S8x512.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v7) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2x512x512 : Shape := ⟨4, ![32, 2, 512, 512]⟩
abbrev S1x2x251x251 : Shape := ⟨4, ![1, 2, 251, 251]⟩
abbrev S2x251x251 : Shape := ⟨3, ![2, 251, 251]⟩
abbrev S_ : Shape := ⟨0, ![]⟩
abbrev S32x1x512x512 : Shape := ⟨4, ![32, 1, 512, 512]⟩
abbrev S32x512x512 : Shape := ⟨3, ![32, 512, 512]⟩
abbrev S32x512x512x1 : Shape := ⟨4, ![32, 512, 512, 1]⟩
abbrev S32x512x512x2 : Shape := ⟨4, ![32, 512, 512, 2]⟩
abbrev S2x32x512x512 : Shape := ⟨4, ![2, 32, 512, 512]⟩
abbrev S1x32x512x512 : Shape := ⟨4, ![1, 32, 512, 512]⟩

abbrev nBuf : Space → Nat
  | .hbm => 155
  | .vmem => 0
  | .smem => 0
  | _ => 0

abbrev hbmTy0_0 (i : Nat) : BufTy := match i % 128 with
  | 0 => ⟨S32x2x512x512, .f32⟩
  | 1 => ⟨S1x2x251x251, .f32⟩
  | 2 => ⟨S2x251x251, .f32⟩
  | 3 => ⟨S_, .f32⟩
  | 4 => ⟨S_, .f32⟩
  | 5 => ⟨S_, .f32⟩
  | 6 => ⟨S32x2x512x512, .f32⟩
  | 7 => ⟨S32x2x512x512, .f32⟩
  | 8 => ⟨S_, .f32⟩
  | 9 => ⟨S32x2x512x512, .f32⟩
  | 10 => ⟨S32x2x512x512, .f32⟩
  | 11 => ⟨S32x1x512x512, .f32⟩
  | 12 => ⟨S32x512x512, .f32⟩
  | 13 => ⟨S_, .f32⟩
  | 14 => ⟨S32x512x512, .f32⟩
  | 15 => ⟨S32x512x512, .f32⟩
  | 16 => ⟨S32x1x512x512, .f32⟩
  | 17 => ⟨S32x512x512, .f32⟩
  | 18 => ⟨S_, .f32⟩
  | 19 => ⟨S32x512x512, .f32⟩
  | 20 => ⟨S32x512x512, .f32⟩
  | 21 => ⟨S32x512x512, .f32⟩
  | 22 => ⟨S32x512x512, .i32⟩
  | 23 => ⟨S_, .i32⟩
  | 24 => ⟨S_, .i32⟩
  | 25 => ⟨S_, .i32⟩
  | 26 => ⟨S32x512x512, .i32⟩
  | 27 => ⟨S32x512x512, .i32⟩
  | 28 => ⟨S_, .i32⟩
  | 29 => ⟨S32x512x512, .i32⟩
  | 30 => ⟨S32x512x512, .i32⟩
  | 31 => ⟨S32x512x512, .f32⟩
  | 32 => ⟨S32x512x512, .i32⟩
  | 33 => ⟨S_, .i32⟩
  | 34 => ⟨S_, .i32⟩
  | 35 => ⟨S_, .i32⟩
  | 36 => ⟨S32x512x512, .i32⟩
  | 37 => ⟨S32x512x512, .i32⟩
  | 38 => ⟨S_, .i32⟩
  | 39 => ⟨S32x512x512, .i32⟩
  | 40 => ⟨S32x512x512, .i32⟩
  | 41 => ⟨S32x512x512, .f32⟩
  | 42 => ⟨S32x512x512, .f32⟩
  | 43 => ⟨S32x512x512, .f32⟩
  | 44 => ⟨S32x512x512, .f32⟩
  | 45 => ⟨S_, .i32⟩
  | 46 => ⟨S32x512x512, .i32⟩
  | 47 => ⟨S32x512x512, .i32⟩
  | 48 => ⟨S_, .i32⟩
  | 49 => ⟨S32x512x512, .i32⟩
  | 50 => ⟨S32x512x512, .i32⟩
  | 51 => ⟨S_, .i32⟩
  | 52 => ⟨S32x512x512, .i32⟩
  | 53 => ⟨S32x512x512, .i1⟩
  | 54 => ⟨S_, .i32⟩
  | 55 => ⟨S32x512x512, .i32⟩
  | 56 => ⟨S32x512x512, .i32⟩
  | 57 => ⟨S32x512x512, .i32⟩
  | 58 => ⟨S_, .i32⟩
  | 59 => ⟨S32x512x512, .i32⟩
  | 60 => ⟨S32x512x512, .i1⟩
  | 61 => ⟨S_, .i32⟩
  | 62 => ⟨S32x512x512, .i32⟩
  | 63 => ⟨S32x512x512, .i32⟩
  | 64 => ⟨S32x512x512, .i32⟩
  | 65 => ⟨S32x512x512x1, .i32⟩
  | 66 => ⟨S32x512x512x1, .i32⟩
  | 67 => ⟨S32x512x512x2, .i32⟩
  | 68 => ⟨S2x32x512x512, .f32⟩
  | 69 => ⟨S_, .i32⟩
  | 70 => ⟨S32x512x512, .i32⟩
  | 71 => ⟨S32x512x512, .i1⟩
  | 72 => ⟨S_, .i32⟩
  | 73 => ⟨S32x512x512, .i32⟩
  | 74 => ⟨S32x512x512, .i32⟩
  | 75 => ⟨S32x512x512, .i32⟩
  | 76 => ⟨S_, .i32⟩
  | 77 => ⟨S32x512x512, .i32⟩
  | 78 => ⟨S32x512x512, .i1⟩
  | 79 => ⟨S_, .i32⟩
  | 80 => ⟨S32x512x512, .i32⟩
  | 81 => ⟨S32x512x512, .i32⟩
  | 82 => ⟨S32x512x512, .i32⟩
  | 83 => ⟨S32x512x512x1, .i32⟩
  | 84 => ⟨S32x512x512x1, .i32⟩
  | 85 => ⟨S32x512x512x2, .i32⟩
  | 86 => ⟨S2x32x512x512, .f32⟩
  | 87 => ⟨S_, .i32⟩
  | 88 => ⟨S32x512x512, .i32⟩
  | 89 => ⟨S32x512x512, .i1⟩
  | 90 => ⟨S_, .i32⟩
  | 91 => ⟨S32x512x512, .i32⟩
  | 92 => ⟨S32x512x512, .i32⟩
  | 93 => ⟨S32x512x512, .i32⟩
  | 94 => ⟨S_, .i32⟩
  | 95 => ⟨S32x512x512, .i32⟩
  | 96 => ⟨S32x512x512, .i1⟩
  | 97 => ⟨S_, .i32⟩
  | 98 => ⟨S32x512x512, .i32⟩
  | 99 => ⟨S32x512x512, .i32⟩
  | 100 => ⟨S32x512x512, .i32⟩
  | 101 => ⟨S32x512x512x1, .i32⟩
  | 102 => ⟨S32x512x512x1, .i32⟩
  | 103 => ⟨S32x512x512x2, .i32⟩
  | 104 => ⟨S2x32x512x512, .f32⟩
  | 105 => ⟨S_, .i32⟩
  | 106 => ⟨S32x512x512, .i32⟩
  | 107 => ⟨S32x512x512, .i1⟩
  | 108 => ⟨S_, .i32⟩
  | 109 => ⟨S32x512x512, .i32⟩
  | 110 => ⟨S32x512x512, .i32⟩
  | 111 => ⟨S32x512x512, .i32⟩
  | 112 => ⟨S_, .i32⟩
  | 113 => ⟨S32x512x512, .i32⟩
  | 114 => ⟨S32x512x512, .i1⟩
  | 115 => ⟨S_, .i32⟩
  | 116 => ⟨S32x512x512, .i32⟩
  | 117 => ⟨S32x512x512, .i32⟩
  | 118 => ⟨S32x512x512, .i32⟩
  | 119 => ⟨S32x512x512x1, .i32⟩
  | 120 => ⟨S32x512x512x1, .i32⟩
  | 121 => ⟨S32x512x512x2, .i32⟩
  | 122 => ⟨S2x32x512x512, .f32⟩
  | 123 => ⟨S_, .f32⟩
  | 124 => ⟨S32x512x512, .f32⟩
  | 125 => ⟨S32x512x512, .f32⟩
  | 126 => ⟨S_, .f32⟩
  | 127 => ⟨S32x512x512, .f32⟩
  | _ => ⟨S32x2x512x512, .f32⟩

abbrev hbmTy0_1 (i : Nat) : BufTy := match i % 128 with
  | 0 => ⟨S32x512x512, .f32⟩
  | 1 => ⟨S32x512x512, .f32⟩
  | 2 => ⟨S_, .f32⟩
  | 3 => ⟨S32x512x512, .f32⟩
  | 4 => ⟨S32x512x512, .f32⟩
  | 5 => ⟨S32x512x512, .f32⟩
  | 6 => ⟨S_, .f32⟩
  | 7 => ⟨S32x512x512, .f32⟩
  | 8 => ⟨S32x512x512, .f32⟩
  | 9 => ⟨S32x512x512, .f32⟩
  | 10 => ⟨S32x512x512, .f32⟩
  | 11 => ⟨S1x32x512x512, .f32⟩
  | 12 => ⟨S2x32x512x512, .f32⟩
  | 13 => ⟨S2x32x512x512, .f32⟩
  | 14 => ⟨S1x32x512x512, .f32⟩
  | 15 => ⟨S2x32x512x512, .f32⟩
  | 16 => ⟨S2x32x512x512, .f32⟩
  | 17 => ⟨S2x32x512x512, .f32⟩
  | 18 => ⟨S1x32x512x512, .f32⟩
  | 19 => ⟨S2x32x512x512, .f32⟩
  | 20 => ⟨S2x32x512x512, .f32⟩
  | 21 => ⟨S2x32x512x512, .f32⟩
  | 22 => ⟨S1x32x512x512, .f32⟩
  | 23 => ⟨S2x32x512x512, .f32⟩
  | 24 => ⟨S2x32x512x512, .f32⟩
  | 25 => ⟨S2x32x512x512, .f32⟩
  | 26 => ⟨S32x2x512x512, .f32⟩
  | _ => ⟨S32x2x512x512, .f32⟩

abbrev hbmTy (i : Nat) : BufTy := match i / 128 with
  | 0 => hbmTy0_0 i
  | 1 => hbmTy0_1 i
  | _ => ⟨S32x2x512x512, .f32⟩

abbrev bufTy : (tb : Table) → Fin (tcTables nBuf tb) → BufTy
  | .hbm, ⟨i, _⟩ => hbmTy i
  | _, _ => ⟨S32x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_10 : Ref sig .tc := ⟨.hbm, 58, rfl⟩
abbrev main_v29 : Ref sig .tc := ⟨.hbm, 59, rfl⟩
abbrev main_v30 : Ref sig .tc := ⟨.hbm, 60, rfl⟩
abbrev main_c_11 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_12 : Ref sig .tc := ⟨.hbm, 69, rfl⟩
abbrev main_v38 : Ref sig .tc := ⟨.hbm, 70, rfl⟩
abbrev main_v39 : Ref sig .tc := ⟨.hbm, 71, rfl⟩
abbrev main_c_13 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_14 : Ref sig .tc := ⟨.hbm, 76, rfl⟩
abbrev main_v43 : Ref sig .tc := ⟨.hbm, 77, rfl⟩
abbrev main_v44 : Ref sig .tc := ⟨.hbm, 78, rfl⟩
abbrev main_c_15 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_c_17 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_18 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_20 : Ref sig .tc := ⟨.hbm, 105, rfl⟩
abbrev main_v66 : Ref sig .tc := ⟨.hbm, 106, rfl⟩
abbrev main_v67 : Ref sig .tc := ⟨.hbm, 107, rfl⟩
abbrev main_c_21 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_22 : Ref sig .tc := ⟨.hbm, 112, rfl⟩
abbrev main_v71 : Ref sig .tc := ⟨.hbm, 113, rfl⟩
abbrev main_v72 : Ref sig .tc := ⟨.hbm, 114, rfl⟩
abbrev main_c_23 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_24 : Ref sig .tc := ⟨.hbm, 123, rfl⟩
abbrev main_v80 : Ref sig .tc := ⟨.hbm, 124, rfl⟩
abbrev main_v81 : Ref sig .tc := ⟨.hbm, 125, rfl⟩
abbrev main_cst_25 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_26 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_27 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]

class Facts₀ : Prop where
  shapeCasts_S1x2x251x251_S2x251x251 : S1x2x251x251.ShapeCasts S2x251x251
  bcast_S_S32x2x512x512 : S_.BroadcastsInDim S32x2x512x512 (![] : Fin 0 → Fin S32x2x512x512.rank)
  slices_S32x2x512x512_S32x1x512x512_0_0_0_0 : S32x2x512x512.Slices ![0, 0, 0, 0] S32x1x512x512
  shapeCasts_S32x1x512x512_S32x512x512 : S32x1x512x512.ShapeCasts S32x512x512
  bcast_S_S32x512x512 : S_.BroadcastsInDim S32x512x512 (![] : Fin 0 → Fin S32x512x512.rank)
  slices_S32x2x512x512_S32x1x512x512_0_1_0_0 : S32x2x512x512.Slices ![0, 1, 0, 0] S32x1x512x512
  bcast_S32x512x512_S32x512x512x1_0_1_2 : S32x512x512.BroadcastsInDim S32x512x512x1 (![0, 1, 2] : Fin 3 → Fin S32x512x512x1.rank)
  concatenates_S32x512x512x1_S32x512x512x1_S32x512x512x2_d3 : Shape.Concatenates [S32x512x512x1, S32x512x512x1] S32x512x512x2 3
  bcast_S32x512x512_S1x32x512x512_1_2_3 : S32x512x512.BroadcastsInDim S1x32x512x512 (![1, 2, 3] : Fin 3 → Fin S1x32x512x512.rank)
  bcast_S1x32x512x512_S2x32x512x512_0_1_2_3 : S1x32x512x512.BroadcastsInDim S2x32x512x512 (![0, 1, 2, 3] : Fin 4 → Fin S2x32x512x512.rank)
  transposes_S2x32x512x512_S32x2x512x512_1_0_2_3 : S2x32x512x512.Transposes [1, 0, 2, 3] S32x2x512x512
  gather_S2x251x251_S32x512x512x2_S2x32x512x512_0_12_n_n_12_3_211_wf : GatherDims.WF S2x251x251 S32x512x512x2 S2x32x512x512 [0] [1, 2] [] [1, 2] [] 3 ![2, 1, 1]

variable [Facts₀]

def gather_S2x251x251_S32x512x512x2_S2x32x512x512_0_12_n_n_12_3_211 : GatherDims S2x251x251 S32x512x512x2 S2x32x512x512 where
  offsetDims := [0]
  collapsedSliceDims := [1, 2]
  operandBatchingDims := []
  startIndicesBatchingDims := []
  startIndexMap := [1, 2]
  indexVectorDim := 3
  sliceSizes := ![2, 1, 1]
  wf := gather_S2x251x251_S32x512x512x2_S2x32x512x512_0_12_n_n_12_3_211_wf

class Facts : Prop extends Facts₀ where

variable [Facts]
-- ==== Proof.RowFn.lean ====
/-
  One row of the kernel body as a function of what it loads: the table block `L` (rows (c, j), columns i), a row `xa` of
  first-axis coordinates and a row `xb` of second-axis coordinates. Per lane: the coordinate scaled, its cell and
  fractional weight; a two-hot selector over the 256 candidate indices (weight 1 − f at the cell, f at the next);
  the table contracted with the first selector over i, each channel's half multiplied by the second selector and summed
  over j. The body runs this eight times, once per row of its block, and stores each result row; so each output buffer
  is the eight rows of this function.
-/
import proofs.«158236_j32693291057269_1_alg».proof.Proof.Gen.KernelIdeal.Frame

noncomputable section

namespace Cert.KernelIdeal.Row

open Cert.KernelIdeal Cert.KernelIdeal.Gen Idealize.ShloMosaic Idealize.ShloMosaic.TcCoe Idealize.SL.Sem

variable {F : FTy → Type} [FloatOps F]

/-- A row of coordinates clamped to [0, 1] and scaled by 250. -/
def scaledRow (x : Vec F S1x512 .f32) : FVec F S512 .f32 :=
  mulf (minimumf (broadcast S512 (Scalar.ofBits .f32 0x3F800000#32)) (maximumf (broadcast S512 (Scalar.ofBits .f32 0x00000000#32)) (shapeCast S512 x shapeCasts_S1x512_S512)))
    (broadcast S512 (Scalar.ofBits .f32 0x437A0000#32))

/-- Each lane's cell: the floor, converted, clamped to [0, 249]. -/
def cellRow (x : Vec F S1x512 .f32) : IVec S512 32 :=
  minsi (broadcast S512 249#32) (maxsi (broadcast S512 0#32) (fptosi 32 (floor (scaledRow x))))

/-- Each lane's fractional weight. -/
def fracRow (x : Vec F S1x512 .f32) : FVec F S512 .f32 :=
  subf (scaledRow x) (sitofp .f32 (cellRow x))

/-- Each lane's next cell. -/
def nextRow (x : Vec F S1x512 .f32) : IVec S512 32 :=
  addi (cellRow x) (broadcast S512 1#32)

/-- The two-hot selector: at candidate i and lane w, 1 − f[w] where i is the cell, f[w] where i is the next cell, added. -/
def twoHot (i0 i1 : IVec S1x512 32) (f : FVec F S1x512 .f32) : FVec F S256x512 .f32 :=
  addf
    (select (cmpi .eq (broadcastTo S256x512 (iota .tc S256x1 32 [0] iota_S256x1_d0_w32) broadcasts_S256x1_S256x512) (broadcastTo S256x512 i0 broadcasts_S1x512_S256x512))
      (broadcastTo S256x512 (shapeCast S1x512 (subf (broadcast S1x512 (Scalar.ofBits .f32 0x3F800000#32)) f) shapeCasts_S1x512_S1x512) broadcasts_S1x512_S256x512)
      (broadcast S256x512 (Scalar.ofBits .f32 0x00000000#32)))
    (select (cmpi .eq (broadcastTo S256x512 (iota .tc S256x1 32 [0] iota_S256x1_d0_w32) broadcasts_S256x1_S256x512) (broadcastTo S256x512 i1 broadcasts_S1x512_S256x512))
      (broadcastTo S256x512 (shapeCast S1x512 f shapeCasts_S1x512_S1x512) broadcasts_S1x512_S256x512)
      (broadcast S256x512 (Scalar.ofBits .f32 0x00000000#32)))

/-- The selector of a coordinate row. -/
def hotOf (x : Vec F S1x512 .f32) : FVec F S256x512 .f32 :=
  twoHot (shapeCast S1x512 (cellRow x) shapeCasts_S512_S1x512) (shapeCast S1x512 (nextRow x) shapeCasts_S512_S1x512)
    (shapeCast S1x512 (fracRow x) shapeCasts_S512_S1x512)

/-- The table contracted with the first-axis selector: rows (c, j), lanes w. -/
def contracted (L : Vec F S512x256 .bf16) (xa : Vec F S1x512 .f32) : FVec F S512x512 .f32 :=
  matmul dot_S512x256_S256x512_S512x512_1_0_0_1_n_n none (shapeCast S512x256 L shapeCasts_S512x256_S512x256)
    (truncf .bf16 (hotOf xa) bitsLt_bf16_f32) (constant S512x512 .f32 0x00000000#32)

/-- Channel 0's row of results. -/
def rowOut0 (L : Vec F S512x256 .bf16) (xa xb : Vec F S1x512 .f32) : FVec F S1x512 .f32 :=
  shapeCast S1x512
    (multiReduction .add [0] S512 (mulf (extractStridedSlice S256x512 ![0, 0] (contracted L xa) slices_S512x512_o0_0_S256x512) (hotOf xb))
      0x00000000#32 reduces_S256x512_S512 (.inl rfl) rfl)
    shapeCasts_S512_S1x512

/-- Channel 1's row of results. -/
def rowOut1 (L : Vec F S512x256 .bf16) (xa xb : Vec F S1x512 .f32) : FVec F S1x512 .f32 :=
  shapeCast S1x512
    (multiReduction .add [0] S512 (mulf (extractStridedSlice S256x512 ![256, 0] (contracted L xa) slices_S512x512_o256_0_S256x512) (hotOf xb))
      0x00000000#32 reduces_S256x512_S512 (.inl rfl) rfl)
    shapeCasts_S512_S1x512

/-- Channel 0's output buffer after the body: row r of it is the row function of the table block and row r of the two
    coordinate blocks. -/
theorem out0_3_eq (x0 x1 : Vec F S8x512 .f32) (x2 : Vec F S512x256 .bf16) :
    out0_3 x0 x1 x2 = View.canon [
      ⟨r0_8, rowOut0 (View.ld x2 r0_0) (View.ld x0 r0_8) (View.ld x1 r0_8)⟩,
      ⟨r0_7, rowOut0 (View.ld x2 r0_0) (View.ld x0 r0_7) (View.ld x1 r0_7)⟩,
      ⟨r0_6, rowOut0 (View.ld x2 r0_0) (View.ld x0 r0_6) (View.ld x1 r0_6)⟩,
      ⟨r0_5, rowOut0 (View.ld x2 r0_0) (View.ld x0 r0_5) (View.ld x1 r0_5)⟩,
      ⟨r0_4, rowOut0 (View.ld x2 r0_0) (View.ld x0 r0_4) (View.ld x1 r0_4)⟩,
      ⟨r0_3, rowOut0 (View.ld x2 r0_0) (View.ld x0 r0_3) (View.ld x1 r0_3)⟩,
      ⟨r0_2, rowOut0 (View.ld x2 r0_0) (View.ld x0 r0_2) (View.ld x1 r0_2)⟩,
      ⟨r0_1, rowOut0 (View.ld x2 r0_0) (View.ld x0 r0_1) (View.ld x1 r0_1)⟩] := by
  unfold out0_3
  rfl

/-- Channel 1's output buffer after the body, likewise. -/
theorem out0_4_eq (x0 x1 : Vec F S8x512 .f32) (x2 : Vec F S512x256 .bf16) :
    out0_4 x0 x1 x2 = View.canon [
      ⟨r0_8, rowOut1 (View.ld x2 r0_0) (View.ld x0 r0_8) (View.ld x1 r0_8)⟩,
      ⟨r0_7, rowOut1 (View.ld x2 r0_0) (View.ld x0 r0_7) (View.ld x1 r0_7)⟩,
      ⟨r0_6, rowOut1 (View.ld x2 r0_0) (View.ld x0 r0_6) (View.ld x1 r0_6)⟩,
      ⟨r0_5, rowOut1 (View.ld x2 r0_0) (View.ld x0 r0_5) (View.ld x1 r0_5)⟩,
      ⟨r0_4, rowOut1 (View.ld x2 r0_0) (View.ld x0 r0_4) (View.ld x1 r0_4)⟩,
      ⟨r0_3, rowOut1 (View.ld x2 r0_0) (View.ld x0 r0_3) (View.ld x1 r0_3)⟩,
      ⟨r0_2, rowOut1 (View.ld x2 r0_0) (View.ld x0 r0_2) (View.ld x1 r0_2)⟩,
      ⟨r0_1, rowOut1 (View.ld x2 r0_0) (View.ld x0 r0_1) (View.ld x1 r0_1)⟩] := by
  unfold out0_4
  rfl

end Cert.KernelIdeal.Row

end
-- ==== Proof.Blocks.lean ====
/-
  From the blocks the grid writes back to the two output arrays whole. Point t holds rows 8 t … 8 t + 7 of both
  coordinate arrays and the whole table; the body's eight stores are rows 0 … 7 of its output block, row r the row
  function of the table and row 8 t + r of the coordinates; the 2048 blocks tile the 16384 rows. So each output array is
  one function of its index: at (R, w) the row function of the table and row R of the coordinates, at lane w.
-/
import proofs.«158236_j32693291057269_1_alg».proof.Proof.RowFn
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Cert.KernelIdeal.Row Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- Row R of a 16384 × 512 array as a 1 × 512 vector. -/
def rowOf (A : S16384x512.Idx → Elt F .f32) (R : Fin 16384) : Vec F S1x512 .f32 :=
  fun y => A (ix2 R (y 1))

/-- Channel 0's output array as one function of its index. -/
def kout0 (c : Dev nD) : S16384x512.Idx → Elt F .f32 :=
  fun y => rowOut0 (V m c main_v4) (rowOf (V m c main_v7) (y 0)) (rowOf (V m c main_v10) (y 0)) (ix2 (0 : Fin 1) (y 1))

/-- Channel 1's output array as one function of its index. -/
def kout1 (c : Dev nD) : S16384x512.Idx → Elt F .f32 :=
  fun y => rowOut1 (V m c main_v4) (rowOf (V m c main_v7) (y 0)) (rowOf (V m c main_v10) (y 0)) (ix2 (0 : Fin 1) (y 1))

/-! ## The index maps, decided over the grid -/

theorem hz : (![0, 0] : Fin 2 → Nat) = fun _ => 0 := funext fun a => by fin_cases a <;> rfl

/-- The two coordinate windows and the two output windows sit at block (t, 0) at point t; the table's at (0, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row r of block t is row 8 t + r of the array. -/
def rowIx (t : Fin cfg0.N) (r : Fin 8) : Fin 16384 :=
  ⟨8 * t.val + r.val, by have h := t.isLt; have hN : cfg0.N = 2048 := N_0; omega⟩

/-! ## The input blocks read through the body's rectangles -/

/-- An entry of the first coordinate block at point t is the array's at row 8 t + its row, same lane. -/
theorem iblk0_apply (c : Dev nD) (t : Fin cfg0.N) (x : S8x512.Idx) (k : S16384x512.Idx)
    (hk0 : (k 0).val = 8 * t.val + (x 0).val) (hk1 : (k 1).val = (x 1).val) :
    (iblk m c 0 t : Vec F S8x512 .f32) x = (V m c main_v7 : S16384x512.Idx → Elt F .f32) k := by
  obtain ⟨h0, h1⟩ := idx0 t
  unfold iblk
  rw [View.read_apply]
  show V m c main_v7 _ = V m c main_v7 _
  congr 1
  funext a
  apply Fin.ext
  match a with
  | ⟨0, _⟩ => show win0_0.index t 0 * 8 + 1 * (x 0).val = (k 0).val; rw [h0, hk0]; omega
  | ⟨1, _⟩ => show win0_0.index t 1 * 512 + 1 * (x 1).val = (k 1).val; rw [h1, hk1]; omega

/-- The same for the second coordinate block. -/
theorem iblk1_apply (c : Dev nD) (t : Fin cfg0.N) (x : S8x512.Idx) (k : S16384x512.Idx)
    (hk0 : (k 0).val = 8 * t.val + (x 0).val) (hk1 : (k 1).val = (x 1).val) :
    (iblk m c 1 t : Vec F S8x512 .f32) x = (V m c main_v10 : S16384x512.Idx → Elt F .f32) k := by
  obtain ⟨h0, h1⟩ := idx1 t
  unfold iblk
  rw [View.read_apply]
  show V m c main_v10 _ = V m c main_v10 _
  congr 1
  funext a
  apply Fin.ext
  match a with
  | ⟨0, _⟩ => show win0_1.index t 0 * 8 + 1 * (x 0).val = (k 0).val; rw [h0, hk0]; omega
  | ⟨1, _⟩ => show win0_1.index t 1 * 512 + 1 * (x 1).val = (k 1).val; rw [h1, hk1]; omega

/-- A one-row load at row offset r of the first coordinate block is row 8 t + r of the array. -/
theorem ld_iblk0 (c : Dev nD) (t : Fin cfg0.N) (r : Fin 8) (off : Fin 2 → Nat)
    (inb : ∀ a, off a + S1x512.size a ≤ S8x512.size a) (ho0 : off 0 = r.val) (ho1 : off 1 = 0) :
    View.ld (iblk m c 0 t : Vec F S8x512 .f32) (Rect.unit (s := S8x512) off S1x512.size inb) = rowOf (V m c main_v7) (rowIx t r) := by
  funext y
  have hy : (y 0).val < 1 := (y 0).isLt
  refine iblk0_apply m c t _ _ ?_ ?_
  · show 8 * t.val + r.val = 8 * t.val + (off 0 + 1 * (y 0).val); omega
  · show (y 1).val = off 1 + 1 * (y 1).val; omega

theorem ld_iblk1 (c : Dev nD) (t : Fin cfg0.N) (r : Fin 8) (off : Fin 2 → Nat)
    (inb : ∀ a, off a + S1x512.size a ≤ S8x512.size a) (ho0 : off 0 = r.val) (ho1 : off 1 = 0) :
    View.ld (iblk m c 1 t : Vec F S8x512 .f32) (Rect.unit (s := S8x512) off S1x512.size inb) = rowOf (V m c main_v10) (rowIx t r) := by
  funext y
  have hy : (y 0).val < 1 := (y 0).isLt
  refine iblk1_apply m c t _ _ ?_ ?_
  · show 8 * t.val + r.val = 8 * t.val + (off 0 + 1 * (y 0).val); omega
  · show (y 1).val = off 1 + 1 * (y 1).val; omega

/-- The table's block is the whole table at every point. -/
theorem ld_iblk2 (c : Dev nD) (t : Fin cfg0.N) : View.ld (iblk m c 2 t : Vec F S512x256 .bf16) r0_0 = V m c main_v4 := by
  rw [View.ld_unit_zero (S := S512x256) hz]
  obtain ⟨h0, h1⟩ := idx2 t
  have hz' : (fun a => win0_2.index t a * main_v4.ty.shape.size a) = fun _ => 0 := funext fun a => by
    match a with
    | ⟨0, _⟩ => show win0_2.index t 0 * _ = 0; rw [h0]; exact Nat.zero_mul _
    | ⟨1, _⟩ => show win0_2.index t 1 * _ = 0; rw [h1]; exact Nat.zero_mul _
  unfold iblk
  exact Memref.read_access_unit_zero (Elt F) main_v4 hz' (fun a => by rw [congrFun hz' a]; simp) (V m c main_v4)

/-! ## An output block as one function of its index -/

/-- Channel 0's block at point t: at (r, w), the row function of the table and row 8 t + r of the coordinates, lane w. -/
def blkFn0 (c : Dev nD) (t : Fin cfg0.N) : S8x512.Idx → Elt F .f32 :=
  fun y => rowOut0 (V m c main_v4) (rowOf (V m c main_v7) (rowIx t (y 0))) (rowOf (V m c main_v10) (rowIx t (y 0))) (ix2 (0 : Fin 1) (y 1))

def blkFn1 (c : Dev nD) (t : Fin cfg0.N) : S8x512.Idx → Elt F .f32 :=
  fun y => rowOut1 (V m c main_v4) (rowOf (V m c main_v7) (rowIx t (y 0))) (rowOf (V m c main_v10) (rowIx t (y 0))) (ix2 (0 : Fin 1) (y 1))

theorem lane_eq (y1 : Fin 512) (x : S1x512.Idx) (h1 : y1.val = (x 1).val) : ix2 (0 : Fin 1) y1 = x := by
  funext a
  match a with
  | ⟨0, _⟩ => exact Fin.ext (by have : (x 0).val < 1 := (x 0).isLt; show 0 = (x 0).val; omega)
  | ⟨1, _⟩ => exact Fin.ext h1

theorem blkFn0_of (c : Dev nD) (t : Fin cfg0.N) (y : S8x512.Idx) (r : Fin 8) (x : S1x512.Idx)
    (h0 : (y 0).val = r.val) (h1 : (y 1).val = (x 1).val) :
    blkFn0 m c t y = rowOut0 (V m c main_v4) (rowOf (V m c main_v7) (rowIx t r)) (rowOf (V m c main_v10) (rowIx t r)) x := by
  unfold blkFn0
  have e0 : y 0 = r := Fin.ext h0
  rw [e0]
  exact congrArg (rowOut0 _ _ _) (lane_eq (y 1) x h1)

theorem blkFn1_of (c : Dev nD) (t : Fin cfg0.N) (y : S8x512.Idx) (r : Fin 8) (x : S1x512.Idx)
    (h0 : (y 0).val = r.val) (h1 : (y 1).val = (x 1).val) :
    blkFn1 m c t y = rowOut1 (V m c main_v4) (rowOf (V m c main_v7) (rowIx t r)) (rowOf (V m c main_v10) (rowIx t r)) x := by
  unfold blkFn1
  have e0 : y 0 = r := Fin.ext h0
  rw [e0]
  exact congrArg (rowOut1 _ _ _) (lane_eq (y 1) x h1)

/-- The store at row offset r carries row r of the block function. -/
theorem piece0 (c : Dev nD) (t : Fin cfg0.N) (r : Fin 8) (off : Fin 2 → Nat)
    (inb : ∀ a, off a + S1x512.size a ≤ S8x512.size a) (ho0 : off 0 = r.val) (ho1 : off 1 = 0) (x : S1x512.Idx) :
    rowOut0 (View.ld (iblk m c 2 t : Vec F S512x256 .bf16) r0_0) (View.ld (iblk m c 0 t : Vec F S8x512 .f32) (Rect.unit (s := S8x512) off S1x512.size inb))
        (View.ld (iblk m c 1 t : Vec F S8x512 .f32) (Rect.unit (s := S8x512) off S1x512.size inb)) x
      = blkFn0 m c t ((Rect.unit (s := S8x512) off S1x512.size inb).emb x) := by
  rw [ld_iblk2, ld_iblk0 m c t r off inb ho0 ho1, ld_iblk1 m c t r off inb ho0 ho1]
  have hx : (x 0).val < 1 := (x 0).isLt
  refine (blkFn0_of m c t _ r x ?_ ?_).symm
  · show off 0 + 1 * (x 0).val = r.val; omega
  · show off 1 + 1 * (x 1).val = (x 1).val; omega

theorem piece1 (c : Dev nD) (t : Fin cfg0.N) (r : Fin 8) (off : Fin 2 → Nat)
    (inb : ∀ a, off a + S1x512.size a ≤ S8x512.size a) (ho0 : off 0 = r.val) (ho1 : off 1 = 0) (x : S1x512.Idx) :
    rowOut1 (View.ld (iblk m c 2 t : Vec F S512x256 .bf16) r0_0) (View.ld (iblk m c 0 t : Vec F S8x512 .f32) (Rect.unit (s := S8x512) off S1x512.size inb))
        (View.ld (iblk m c 1 t : Vec F S8x512 .f32) (Rect.unit (s := S8x512) off S1x512.size inb)) x
      = blkFn1 m c t ((Rect.unit (s := S8x512) off S1x512.size inb).emb x) := by
  rw [ld_iblk2, ld_iblk0 m c t r off inb ho0 ho1, ld_iblk1 m c t r off inb ho0 ho1]
  have hx : (x 0).val < 1 := (x 0).isLt
  refine (blkFn1_of m c t _ r x ?_ ?_).symm
  · show off 0 + 1 * (x 0).val = r.val; omega
  · show off 1 + 1 * (x 1).val = (x 1).val; omega

/-- The array function at an index of block t is the block function at the index's place in the block. -/
theorem kout0_at (c : Dev nD) (t : Fin cfg0.N) (y : S8x512.Idx) (i : S16384x512.Idx)
    (hi0 : (i 0).val = 8 * t.val + (y 0).val) (hi1 : (i 1).val = (y 1).val) : kout0 m c i = blkFn0 m c t y := by
  unfold kout0 blkFn0
  have e0 : i 0 = rowIx t (y 0) := Fin.ext hi0
  have e1 : i 1 = y 1 := Fin.ext hi1
  rw [e0, e1]

theorem kout1_at (c : Dev nD) (t : Fin cfg0.N) (y : S8x512.Idx) (i : S16384x512.Idx)
    (hi0 : (i 0).val = 8 * t.val + (y 0).val) (hi1 : (i 1).val = (y 1).val) : kout1 m c i = blkFn1 m c t y := by
  unfold kout1 blkFn1
  have e0 : i 0 = rowIx t (y 0) := Fin.ext hi0
  have e1 : i 1 = y 1 := Fin.ext hi1
  rw [e0, e1]

/-! ## What a point writes back, and the cover -/

/-- Point t writes back block t of channel 0's array function. -/
theorem flushed3_eq (c : Dev nD) (t : Fin cfg0.N) :
    (dats m 0 c).flushed 3 t = ((cfg0.win 3).blk t).view.read (Elt F) (kout0 m c) := by
  show (cfg0.win 3).cut (grid0.coords t) ((dats m 0 c).after 3 t) = _
  rw [after0_3, Row.out0_3_eq]
  obtain ⟨h0, h1⟩ := idx3 t
  funext y
  refine (View.canon_apply_of_pieces (blkFn0 m c t) _ ?_ _ (cover0_3 _ _ _ _ _ _ _ _ _)).trans ?_
  · intro p hp
    simp only [List.mem_cons, List.mem_nil_iff, or_false] at hp
    rcases hp with rfl | rfl | rfl | rfl | rfl | rfl | rfl | rfl
    · exact fun x => piece0 m c t 7 _ inb_S8x512_S1x512_7_0 rfl rfl x
    · exact fun x => piece0 m c t 6 _ inb_S8x512_S1x512_6_0 rfl rfl x
    · exact fun x => piece0 m c t 5 _ inb_S8x512_S1x512_5_0 rfl rfl x
    · exact fun x => piece0 m c t 4 _ inb_S8x512_S1x512_4_0 rfl rfl x
    · exact fun x => piece0 m c t 3 _ inb_S8x512_S1x512_3_0 rfl rfl x
    · exact fun x => piece0 m c t 2 _ inb_S8x512_S1x512_2_0 rfl rfl x
    · exact fun x => piece0 m c t 1 _ inb_S8x512_S1x512_1_0 rfl rfl x
    · exact fun x => piece0 m c t 0 _ inb_S8x512_S1x512_0_0 rfl rfl x
  · show blkFn0 m c t y = kout0 m c (((cfg0.win 3).blk t).view.emb y)
    refine (kout0_at m c t y _ ?_ ?_).symm
    · show win0_3.index t 0 * 8 + 1 * (y 0).val = 8 * t.val + (y 0).val; rw [h0]; omega
    · show win0_3.index t 1 * 512 + 1 * (y 1).val = (y 1).val; rw [h1]; omega

theorem flushed4_eq (c : Dev nD) (t : Fin cfg0.N) :
    (dats m 0 c).flushed 4 t = ((cfg0.win 4).blk t).view.read (Elt F) (kout1 m c) := by
  show (cfg0.win 4).cut (grid0.coords t) ((dats m 0 c).after 4 t) = _
  rw [after0_4, Row.out0_4_eq]
  obtain ⟨h0, h1⟩ := idx4 t
  funext y
  refine (View.canon_apply_of_pieces (blkFn1 m c t) _ ?_ _ (cover0_4 _ _ _ _ _ _ _ _ _)).trans ?_
  · intro p hp
    simp only [List.mem_cons, List.mem_nil_iff, or_false] at hp
    rcases hp with rfl | rfl | rfl | rfl | rfl | rfl | rfl | rfl
    · exact fun x => piece1 m c t 7 _ inb_S8x512_S1x512_7_0 rfl rfl x
    · exact fun x => piece1 m c t 6 _ inb_S8x512_S1x512_6_0 rfl rfl x
    · exact fun x => piece1 m c t 5 _ inb_S8x512_S1x512_5_0 rfl rfl x
    · exact fun x => piece1 m c t 4 _ inb_S8x512_S1x512_4_0 rfl rfl x
    · exact fun x => piece1 m c t 3 _ inb_S8x512_S1x512_3_0 rfl rfl x
    · exact fun x => piece1 m c t 2 _ inb_S8x512_S1x512_2_0 rfl rfl x
    · exact fun x => piece1 m c t 1 _ inb_S8x512_S1x512_1_0 rfl rfl x
    · exact fun x => piece1 m c t 0 _ inb_S8x512_S1x512_0_0 rfl rfl x
  · show blkFn1 m c t y = kout1 m c (((cfg0.win 4).blk t).view.emb y)
    refine (kout1_at m c t y _ ?_ ?_).symm
    · show win0_4.index t 0 * 8 + 1 * (y 0).val = 8 * t.val + (y 0).val; rw [h0]; omega
    · show win0_4.index t 1 * 512 + 1 * (y 1).val = (y 1).val; rw [h1]; omega

/-- Every index of channel 0's array lies in the block of point (row / 8). -/
theorem cover3 (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  obtain ⟨t, ht⟩ : ∃ t : Fin cfg0.N, t.val = (i 0).val / 8 :=
    ⟨⟨(i 0).val / 8, by rw [show cfg0.N = 2048 from N_0]; omega⟩, rfl⟩
  obtain ⟨h0, h1⟩ := idx3 t
  refine ⟨t, flush0_3 t, ?_⟩
  show i ∈ ((View.whole main_v11_0).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    rw [h0]; omega
  | ⟨1, _⟩ =>
    show win0_3.index t 1 * 512 ≤ (i 1).val ∧ (i 1).val < win0_3.index t 1 * 512 + 512
    rw [h1]; omega

theorem cover4 (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  obtain ⟨t, ht⟩ : ∃ t : Fin cfg0.N, t.val = (i 0).val / 8 :=
    ⟨⟨(i 0).val / 8, by rw [show cfg0.N = 2048 from N_0]; omega⟩, rfl⟩
  obtain ⟨h0, h1⟩ := idx4 t
  refine ⟨t, flush0_4 t, ?_⟩
  show i ∈ ((View.whole main_v11_1).slice (win0_4.rect t)).set
  rw [View.set_slice_whole, Rect.mem_set_unit]
  intro a
  match a with
  | ⟨0, _⟩ =>
    show win0_4.index t 0 * 8 ≤ (i 0).val ∧ (i 0).val < win0_4.index t 0 * 8 + 8
    rw [h0]; omega
  | ⟨1, _⟩ =>
    show win0_4.index t 1 * 512 ≤ (i 1).val ∧ (i 1).val < win0_4.index t 1 * 512 + 512
    rw [h1]; omega

/-- After the grid, channel 0's array is that function. -/
theorem final3 (c : Dev nD) : (dats m 0 c).arrAt 3 cfg0.N = kout0 m c :=
  (dats m 0 c).arrAt_eq_of_cover 3 (kout0 m c) (fun t _ => flushed3_eq m c t) cover3

/-- After the grid, channel 1's array is that function. -/
theorem final4 (c : Dev nD) : (dats m 0 c).arrAt 4 cfg0.N = kout1 m c :=
  (dats m 0 c).arrAt_eq_of_cover 4 (kout1 m c) (fun t _ => flushed4_eq m c t) cover4

end Cert.KernelIdeal.Blocks

end
-- ==== Proof.HostIn.lean ====
/-
  The three arrays the region stages, as the host operations before it leave them, read at an index: the two
  coordinate channels of x, each laid out as 16384 rows of 512 (row R is image R / 512, line R % 512), and the table,
  each channel padded to 256 × 256 with zeros, its two table axes swapped, the channels stacked as 512 rows of 256 —
  row 256 c + j, column i holds T[c, i, j] inside the table.
-/
import proofs.«158236_j32693291057269_1_alg».proof.Proof.Gen.KernelIdeal.Frame
import Idealize.ShloMosaic.Lib.Pipeline.Value
import Idealize.ShloMosaic.Lib.ValueLayout
import Idealize.ShloMosaic.Lib.KernelVsHost
import Idealize.ShloMosaic.Lib.StableHlo.Run

noncomputable section

namespace Cert.KernelIdeal.HostIn

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The coordinate channels -/

/-- One channel of a 32 × 2 × 512 × 512 array, cut out (offset `o` on axis 1), its unit axis dropped and its two
    leading axes merged, read at row `R`, lane `w`: image `R / 512`, line `R % 512` of that channel. The two
    shape casts keep the row-major position; the slice shifts the channel coordinate by `o`. -/
private theorem chan_read (X : S32x2x512x512.Idx → EReal) (o : Nat) (ch : Fin 2) (hch : ch.val = o)
    (h : S32x2x512x512.Slices ![0, o, 0, 0] S32x1x512x512) (R : Fin 16384) (w : Fin 512) :
    shapeCast S16384x512
        (shapeCast S32x512x512 (extractStridedSlice S32x1x512x512 ![0, o, 0, 0] X h) shapeCasts_S32x1x512x512_S32x512x512)
        shapeCasts_S32x512x512_S16384x512 (ix2 R w)
      = X (ix4 (⟨R.val / 512, by omega⟩ : Fin 32) ch (⟨R.val % 512, by omega⟩ : Fin 512) w) := by
  refine (shapeCast_apply _ shapeCasts_S32x512x512_S16384x512 (ix2 R w)
    (ix3 (⟨R.val / 512, by omega⟩ : Fin 32) (⟨R.val % 512, by omega⟩ : Fin 512) w) ?_).trans ?_
  · rw [Shape.rowMajor_val_three, Shape.rowMajor_val_two]
    show (R.val / 512 * 512 + R.val % 512) * 512 + w.val = R.val * 512 + w.val
    omega
  refine (shapeCast_apply _ shapeCasts_S32x1x512x512_S32x512x512
    (ix3 (⟨R.val / 512, by omega⟩ : Fin 32) (⟨R.val % 512, by omega⟩ : Fin 512) w)
    (ix4 (⟨R.val / 512, by omega⟩ : Fin 32) (0 : Fin 1) (⟨R.val % 512, by omega⟩ : Fin 512) w) ?_).trans ?_
  · rw [Shape.rowMajor_val_four, Shape.rowMajor_val_three]
    show ((R.val / 512 * 1 + 0) * 512 + R.val % 512) * 512 + w.val = (R.val / 512 * 512 + R.val % 512) * 512 + w.val
    omega
  exact slice4_axis1_apply o X h _ (0 : Fin 1) _ _ ch (by rw [hch]; rfl)

/-- The first-axis coordinates as the host operations leave them: channel 0 of x, cut out and reshaped twice. -/
private theorem v7_eq (c : Dev nD) :
    (V m c main_v7 : S16384x512.Idx → EReal)
      = shapeCast S16384x512
          (shapeCast S32x512x512
            (extractStridedSlice S32x1x512x512 ![0, 0, 0, 0]
              (m ((c : Thread nD τ).loc main_arg0) : S32x2x512x512.Idx → EReal)
              slices_S32x2x512x512_S32x1x512x512_0_0_0_0)
            shapeCasts_S32x1x512x512_S32x512x512)
          shapeCasts_S32x512x512_S16384x512 := by
  dsimp only [Gen.V, Gen.V0]
  simp only [Gen.hostOps0, Gen.hostOps0_1, Gen.hostOps0_2, List.flatten_cons, List.flatten_nil, List.append_nil,
    List.cons_append, List.nil_append]
  after_results
  rfl

/-- The second-axis coordinates as the host operations leave them: channel 1 of x, cut out and reshaped twice. -/
private theorem v10_eq (c : Dev nD) :
    (V m c main_v10 : S16384x512.Idx → EReal)
      = shapeCast S16384x512
          (shapeCast S32x512x512
            (extractStridedSlice S32x1x512x512 ![0, 1, 0, 0]
              (m ((c : Thread nD τ).loc main_arg0) : S32x2x512x512.Idx → EReal)
              slices_S32x2x512x512_S32x1x512x512_0_1_0_0)
            shapeCasts_S32x1x512x512_S32x512x512)
          shapeCasts_S32x512x512_S16384x512 := by
  dsimp only [Gen.V, Gen.V0]
  simp only [Gen.hostOps0, Gen.hostOps0_1, Gen.hostOps0_2, List.flatten_cons, List.flatten_nil, List.append_nil,
    List.cons_append, List.nil_append]
  after_results
  rfl

/-- Row R, lane w of the first-axis coordinates is x[R / 512, 0, R % 512, w]. -/
theorem V_xa (c : Dev nD) (R : Fin 16384) (w : Fin 512) :
    (V m c main_v7 : S16384x512.Idx → EReal) (ix2 R w)
      = (m ((c : Thread nD τ).loc main_arg0) : S32x2x512x512.Idx → EReal)
          (ix4 (⟨R.val / 512, by omega⟩ : Fin 32) (0 : Fin 2) (⟨R.val % 512, by omega⟩ : Fin 512) w) :=
  (congrFun (v7_eq m c) (ix2 R w)).trans
    (chan_read _ 0 (0 : Fin 2) rfl slices_S32x2x512x512_S32x1x512x512_0_0_0_0 R w)

/-- Row R, lane w of the second-axis coordinates is x[R / 512, 1, R % 512, w]. -/
theorem V_xb (c : Dev nD) (R : Fin 16384) (w : Fin 512) :
    (V m c main_v10 : S16384x512.Idx → EReal) (ix2 R w)
      = (m ((c : Thread nD τ).loc main_arg0) : S32x2x512x512.Idx → EReal)
          (ix4 (⟨R.val / 512, by omega⟩ : Fin 32) (1 : Fin 2) (⟨R.val % 512, by omega⟩ : Fin 512) w) :=
  (congrFun (v10_eq m c) (ix2 R w)).trans
    (chan_read _ 1 (1 : Fin 2) rfl slices_S32x2x512x512_S32x1x512x512_0_1_0_0 R w)

/-! ## The table -/

/-- The staged table as the host operations leave it: the table's unit axis dropped, each channel padded to
    256 × 256 (five entries behind each table axis, none in front or between), the two table axes swapped, the two
    channels stacked, and the format narrowed (the identity on extended reals). -/
private theorem v4_eq (c : Dev nD) :
    (V m c main_v4 : S512x256.Idx → EReal)
      = truncf (F := Ideal) .bf16
          (shapeCast S512x256
            (transpose S2x256x256 [0, 2, 1]
              (pad S2x256x256 ![0, 0, 0] ![0, 5, 5] ![0, 0, 0]
                (shapeCast S2x251x251 (m ((c : Thread nD τ).loc main_arg1) : S1x2x251x251.Idx → EReal)
                  shapeCasts_S1x2x251x251_S2x251x251)
                (sitofp (F := Ideal) .f32 (constantI S_ 32 0#32))
                pads_S2x251x251_S2x256x256_000_050_050 h_S_)
              transposes_S2x256x256_S2x256x256_0_2_1)
            shapeCasts_S2x256x256_S512x256)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

/-- The table's layout chain read inside the table: row `256 ch + j`, column `i` is `T[0, ch, i, j]` whatever the
    padding value, both table coordinates being below 251. -/
private theorem lut_read (T : S1x2x251x251.Idx → EReal) (z : S_.Idx → EReal) (ch : Fin 2) (j i : ℕ) (hj : j < 251) (hi : i < 251) :
    shapeCast S512x256
        (transpose S2x256x256 [0, 2, 1]
          (pad S2x256x256 ![0, 0, 0] ![0, 5, 5] ![0, 0, 0] (shapeCast S2x251x251 T shapeCasts_S1x2x251x251_S2x251x251) z
            pads_S2x251x251_S2x256x256_000_050_050 h_S_)
          transposes_S2x256x256_S2x256x256_0_2_1)
        shapeCasts_S2x256x256_S512x256 (ix2 (⟨256 * ch.val + j, by omega⟩ : Fin 512) (⟨i, by omega⟩ : Fin 256))
      = T (ix4 (0 : Fin 1) ch (⟨i, hi⟩ : Fin 251) (⟨j, hj⟩ : Fin 251)) := by
  -- the stacking keeps the row-major position: row 256 ch + j is row j of channel ch
  refine (shapeCast_apply _ shapeCasts_S2x256x256_S512x256 _
    (ix3 ch (⟨j, by omega⟩ : Fin 256) (⟨i, by omega⟩ : Fin 256)) ?_).trans ?_
  · rw [Shape.rowMajor_val_three, Shape.rowMajor_val_two]
    show (ch.val * 256 + j) * 256 + i = (256 * ch.val + j) * 256 + i
    omega
  -- the swap of the two table axes
  refine (transpose_ix3_021_apply _ transposes_S2x256x256_S2x256x256_0_2_1 ch (⟨j, by omega⟩ : Fin 256) (⟨i, by omega⟩ : Fin 256)).trans ?_
  -- inside the table the padded array is the table
  refine (pad_apply_of_inside _ _ _ _ z pads_S2x251x251_S2x256x256_000_050_050 h_S_
    (ix3 ch (⟨i, by omega⟩ : Fin 256) (⟨j, by omega⟩ : Fin 256)) (ix3 ch (⟨i, hi⟩ : Fin 251) (⟨j, hj⟩ : Fin 251))
    (fun a => match a with
      | ⟨0, _⟩ => by show ch.val = 0 + ch.val * (0 + 1); omega
      | ⟨1, _⟩ => by show i = 0 + i * (0 + 1); omega
      | ⟨2, _⟩ => by show j = 0 + j * (0 + 1); omega)).trans ?_
  -- the unit axis dropped
  exact shapeCast_1abc_abc_apply T shapeCasts_S1x2x251x251_S2x251x251 ch (⟨i, hi⟩ : Fin 251) (⟨j, hj⟩ : Fin 251)

/-- Inside the table, row 256 ch + j, column i of the staged table is T[0, ch, i, j]. -/
theorem V_lut (c : Dev nD) (ch : Fin 2) (j i : ℕ) (hj : j < 251) (hi : i < 251) :
    (V m c main_v4 : S512x256.Idx → EReal) (ix2 (⟨256 * ch.val + j, by omega⟩ : Fin 512) (⟨i, by omega⟩ : Fin 256))
      = (m ((c : Thread nD τ).loc main_arg1) : S1x2x251x251.Idx → EReal)
          (ix4 (0 : Fin 1) ch (⟨i, hi⟩ : Fin 251) (⟨j, hj⟩ : Fin 251)) :=
  (congrFun (v4_eq m c) _).trans (lut_read _ _ ch j i hj hi)

end Cert.KernelIdeal.HostIn

end
-- ==== Proof.HostOut.lean ====
/-
  The host operations after the region: each output array, 16384 rows of 512, is read as 32 images of 512 lines, given
  a channel axis of extent 1, and the two are joined along it. So the result at (b, c, h, w) is channel c's array at
  (512 b + h, w).
-/
import proofs.«158236_j32693291057269_1_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.HostOut

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- Two arrays of 16384 rows stacked as the two channels of 32 images. -/
def stack {α : Type} (O0 O1 : S16384x512.Idx → α) : S32x2x512x512.Idx → α :=
  fun j => if (j 1).val = 0 then O0 (ix2 (⟨(j 0).val * 512 + (j 2).val, by have h0 : (j 0).val < 32 := (j 0).isLt; have h2 : (j 2).val < 512 := (j 2).isLt; omega⟩ : Fin 16384) (j 3))
    else O1 (ix2 (⟨(j 0).val * 512 + (j 2).val, by have h0 : (j 0).val < 32 := (j 0).isLt; have h2 : (j 2).val < 512 := (j 2).isLt; omega⟩ : Fin 16384) (j 3))

/-- One array of 16384 rows read as 32 images of 512 lines and given a channel axis of extent 1: at (b, u, h, w) it is
    the array at (512 b + h, w). -/
theorem chan_apply {α : Type} (O : S16384x512.Idx → α) (b : Fin 32) (u : Fin 1) (h : Fin 512) (w : Fin 512) :
    broadcastInDim S32x1x512x512 ![0, 2, 3] bcast_S32x512x512_S32x1x512x512_0_2_3
        (shapeCast S32x512x512 O shapeCasts_S16384x512_S32x512x512) (ix4 b u h w)
      = O (ix2 (⟨b.val * 512 + h.val, by have := b.isLt; have := h.isLt; omega⟩ : Fin 16384) w) := by
  refine (broadcastInDim_apply _ _ _ _ (ix3 b h w) (fun a => ?_)).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show (b.val * 512 + h.val) * 512 + w.val = (b.val * 512 + h.val) * 512 + w.val
    rfl

/-- The two channels joined: channel 0 is the first array, channel 1 the second. -/
theorem stack_pure {α : Type} (O0 O1 : S16384x512.Idx → α) :
    concatenate S32x2x512x512 1
      [⟨S32x1x512x512, broadcastInDim S32x1x512x512 ![0, 2, 3] bcast_S32x512x512_S32x1x512x512_0_2_3
          (shapeCast S32x512x512 O0 shapeCasts_S16384x512_S32x512x512)⟩,
       ⟨S32x1x512x512, broadcastInDim S32x1x512x512 ![0, 2, 3] bcast_S32x512x512_S32x1x512x512_0_2_3
          (shapeCast S32x512x512 O1 shapeCasts_S16384x512_S32x512x512)⟩]
      concatenates_S32x1x512x512_S32x1x512x512_S32x2x512x512_d1 = stack O0 O1 := by
  funext j
  obtain ⟨b, ch, h, w, rfl⟩ : ∃ (b : Fin 32) (ch : Fin 2) (h : Fin 512) (w : Fin 512), j = ix4 b ch h w :=
    ⟨_, _, _, _, eq_ix4 j⟩
  unfold stack
  show _ = if ch.val = 0 then O0 (ix2 (⟨b.val * 512 + h.val, _⟩ : Fin 16384) w) else O1 (ix2 (⟨b.val * 512 + h.val, _⟩ : Fin 16384) w)
  by_cases hc : ch.val = 0
  · rw [if_pos hc]
    refine (concatenate_pair_apply_left (t := S32x2x512x512) (s₁ := S32x1x512x512) (s₂ := S32x1x512x512) (1 : Fin 4) _ _ concatenates_S32x1x512x512_S32x1x512x512_S32x2x512x512_d1
      (ix4 b ch h w) rfl (ix4 b (0 : Fin 1) h w) (fun a => ?_)).trans (chan_apply O0 b 0 h w)
    match a with
    | ⟨0, _⟩ => rfl
    | ⟨1, _⟩ => exact hc.symm
    | ⟨2, _⟩ => rfl
    | ⟨3, _⟩ => rfl
  · rw [if_neg hc]
    refine (concatenate_pair_apply_right (t := S32x2x512x512) (s₁ := S32x1x512x512) (s₂ := S32x1x512x512) (1 : Fin 4) _ _ concatenates_S32x1x512x512_S32x1x512x512_S32x2x512x512_d1
      (ix4 b ch h w) rfl rfl (ix4 b (0 : Fin 1) h w) (fun a ha => ?_) ?_).trans (chan_apply O1 b 0 h w)
    · match a with
      | ⟨0, _⟩ => rfl
      | ⟨1, _⟩ => exact absurd rfl ha
      | ⟨2, _⟩ => rfl
      | ⟨3, _⟩ => rfl
    · show (0 : Fin 1).val + 1 = ch.val
      have := ch.isLt
      show 0 + 1 = ch.val
      omega

/-- The result buffer after the host tail is the two output arrays stacked. -/
theorem tail_eq (c : Dev nD) :
    (Pipeline.afterTail₀ cfgs (dats m) 0 (V0 m) [hostOps1] c main_v16 : S32x2x512x512.Idx → Elt F .f32)
      = stack ((dats m 0 c).arrAt 3 cfg0.N : S16384x512.Idx → Elt F .f32) ((dats m 0 c).arrAt 4 cfg0.N : S16384x512.Idx → Elt F .f32) := by
  have h3 : Pipeline.withArrays (cfgs 0).spec c (V0 m c) (fun w => (dats m 0 c).arrAt w (cfgs 0).N) (Proc.devRef .tc main_v11_0)
      = (dats m 0 c).arrAt 3 cfg0.N :=
    Pipeline.withArrays_arr spec0 launch0.win.arr_inj c (V0 m c) (fun w => (dats m 0 c).arrAt w cfg0.N) 3
  have h4 : Pipeline.withArrays (cfgs 0).spec c (V0 m c) (fun w => (dats m 0 c).arrAt w (cfgs 0).N) (Proc.devRef .tc main_v11_1)
      = (dats m 0 c).arrAt 4 cfg0.N :=
    Pipeline.withArrays_arr spec0 launch0.win.arr_inj c (V0 m c) (fun w => (dats m 0 c).arrAt w cfg0.N) 4
  unfold Pipeline.afterTail₀
  show StableHlo.after hostOps1 _ (Proc.devRef .tc main_v16) = _
  after_results
  rw [h3, h4]
  exact stack_pure _ _

end Cert.KernelIdeal.HostOut

end
-- ==== Proof.Scalar.lean ====
/-
  Bilinear interpolation in a 251 × 251 table, two output channels: the scalar functions both programs apply to a
  coordinate, the two arrangements of the four-corner sum, and the result as ONE function of the argument arrays.

  A coordinate x is clamped to [0, 1] and scaled by 250 (`scaled`); its cell is ⌊scaled x⌋ read as a 32-bit integer and
  clamped to [0, 249] (`cellW`, as a number `cell`), its fractional weight `frac x = scaled x − cell x`. With
  a = x[b, 0, h, w], b' = x[b, 1, h, w], k = cell a, l = cell b', the result at (b, c, h, w) is
    T[c, k, l] (1 − fa)(1 − fb) + T[c, k, l+1] (1 − fa) fb + T[c, k+1, l] fa (1 − fb) + T[c, k+1, l+1] fa fb.
-/
import Idealize.ShloMosaic.PureOps.Ideal
import Idealize.ShloMosaic.Lib.ValueIdx

noncomputable section

namespace Cert.Bilerp

open Idealize.ShloMosaic Idealize.ShloMosaic.ValueIdx

/-- The weight 1, as both programs spell it. -/
def one : EReal := Ideal.ofBits .f32 0x3F800000#32

/-- A coordinate clamped to [0, 1] and scaled to table units. -/
def scaled (x : EReal) : EReal :=
  min (Ideal.ofBits .f32 0x3F800000#32) (max (Ideal.ofBits .f32 0x00000000#32) x) * Ideal.ofBits .f32 0x437A0000#32

/-- The cell of a coordinate as a 32-bit word: the floor, converted, clamped to [0, 249]. -/
def cellW (x : EReal) : BitVec 32 :=
  IntOp.minsi 249#32 (IntOp.maxsi 0#32 (Ideal.fptosi 32 (Ideal.liftRound Int.floor (scaled x))))

/-- The cell as a number. -/
def cell (x : EReal) : ℕ := (cellW x).toNat

/-- The fractional weight of a coordinate inside its cell. -/
def frac (x : EReal) : EReal := scaled x - (((cellW x).toInt : ℝ) : EReal)

/-- The two clamps on any 32-bit word: the result, read unsigned, is at most 249, and reads the same signed. -/
private theorem clamp_word (z : BitVec 32) :
    (IntOp.minsi 249#32 (IntOp.maxsi 0#32 z)).toNat ≤ 249
      ∧ (IntOp.minsi 249#32 (IntOp.maxsi 0#32 z)).toInt = ((IntOp.minsi 249#32 (IntOp.maxsi 0#32 z)).toNat : ℤ) := by
  have h249 : (249#32 : BitVec 32).toInt = 249 := by decide
  have h0 : (0#32 : BitVec 32).toInt = 0 := by decide
  have hs : ∀ v : BitVec 32, 0 ≤ v.toInt → v.toInt ≤ 249 → v.toNat ≤ 249 ∧ v.toInt = (v.toNat : ℤ) := by
    intro v h1 h2
    have hc := BitVec.toInt_eq_toNat_cond v
    have hlt := v.isLt
    split at hc <;> omega
  apply hs
  · unfold IntOp.minsi IntOp.maxsi
    by_cases hz : (z.slt 0#32) = true
    · rw [if_pos hz]
      by_cases h2 : ((249#32 : BitVec 32).slt 0#32) = true
      · rw [if_pos h2]; omega
      · rw [if_neg h2]; omega
    · rw [if_neg hz]
      have hz' : ¬ z.toInt < (0#32 : BitVec 32).toInt := fun h => hz (BitVec.slt_iff_toInt_lt.mpr h)
      by_cases h2 : ((249#32 : BitVec 32).slt z) = true
      · rw [if_pos h2]; omega
      · rw [if_neg h2]; omega
  · unfold IntOp.minsi IntOp.maxsi
    by_cases hz : (z.slt 0#32) = true
    · rw [if_pos hz]
      by_cases h2 : ((249#32 : BitVec 32).slt 0#32) = true
      · rw [if_pos h2]; omega
      · rw [if_neg h2]; omega
    · rw [if_neg hz]
      by_cases h2 : ((249#32 : BitVec 32).slt z) = true
      · rw [if_pos h2]; omega
      · rw [if_neg h2]
        have h2' : ¬ (249#32 : BitVec 32).toInt < z.toInt := fun h => h2 (BitVec.slt_iff_toInt_lt.mpr h)
        omega

/-- The cell is at most 249: the clamp's upper end. -/
theorem cell_le (x : EReal) : cell x ≤ 249 := (clamp_word _).1

/-- The cell word is the word of its number. -/
theorem cellW_eq (x : EReal) : cellW x = BitVec.ofNat 32 (cell x) := by
  apply BitVec.eq_of_toNat_eq
  rw [BitVec.toNat_ofNat]
  exact (Nat.mod_eq_of_lt (cellW x).isLt).symm

/-- Read signed, the cell word is its number (it is below 2³¹). -/
theorem cellW_toInt (x : EReal) : (cellW x).toInt = (cell x : ℤ) := (clamp_word _).2

/-- The next cell's word. -/
theorem cellW_succ (x : EReal) : IntOp.addi (cellW x) 1#32 = BitVec.ofNat 32 (cell x + 1) := by
  have h := cell_le x
  apply BitVec.eq_of_toNat_eq
  unfold IntOp.addi
  rw [BitVec.toNat_add, BitVec.toNat_ofNat, BitVec.toNat_ofNat]
  show ((cellW x).toNat + 1 % 2 ^ 32) % 2 ^ 32 = (cell x + 1) % 2 ^ 32
  rfl

/-- Read signed, the next cell's word is its number. -/
theorem cellW_succ_toInt (x : EReal) : (IntOp.addi (cellW x) 1#32).toInt = ((cell x + 1 : ℕ) : ℤ) := by
  have h := cell_le x
  rw [cellW_succ, BitVec.toInt_eq_toNat_cond, BitVec.toNat_ofNat]
  have hm : (cell x + 1) % 2 ^ 32 = cell x + 1 := Nat.mod_eq_of_lt (by omega)
  rw [hm, if_pos (by omega)]

/-- The word 0x3F800000 denotes the real 1. -/
private theorem word_one : Ideal.ofBits .f32 0x3F800000#32 = ((1 : ℝ) : EReal) := by
  simp [Ideal.ofBits, Ideal.ieee, -EReal.coe_mul]; norm_num

/-- The word 0x00000000 denotes the real 0. -/
private theorem word_zero : Ideal.ofBits .f32 0x00000000#32 = ((0 : ℝ) : EReal) := by
  simp [Ideal.ofBits, Ideal.ieee]

/-- The word 0x437A0000 denotes the real 250: exponent field 134, significand 2²³ + 7995392, so 16384000 · 2⁻¹⁶. -/
private theorem word_250 : Ideal.ofBits .f32 0x437A0000#32 = ((250 : ℝ) : EReal) := by
  simp [Ideal.ofBits, Ideal.ieee, -EReal.coe_mul]; norm_num

/-- The weight 1 is the real 1. -/
private theorem one_eq : one = ((1 : ℝ) : EReal) := word_one

theorem one_real : ∃ r : ℝ, one = (r : EReal) := ⟨1, one_eq⟩

/-- The clamp to [0, 1] of any extended real is real (−∞ goes to 0, +∞ to 1), and so is its multiple by 250. -/
private theorem scaled_real (x : EReal) : ∃ s : ℝ, scaled x = (s : EReal) := by
  unfold scaled
  rw [word_one, word_zero, word_250]
  induction x using EReal.rec with
  | bot =>
    refine ⟨0 * 250, ?_⟩
    rw [max_eq_left bot_le, min_eq_right (EReal.coe_le_coe_iff.mpr zero_le_one), EReal.coe_mul]
  | top =>
    refine ⟨1 * 250, ?_⟩
    rw [max_eq_right le_top, min_eq_left le_top, EReal.coe_mul]
  | coe r =>
    refine ⟨min 1 (max 0 r) * 250, ?_⟩
    rw [EReal.coe_mul, EReal.coe_strictMono.monotone.map_min, EReal.coe_strictMono.monotone.map_max]

/-- The clamp makes the scaled coordinate a real number whatever the coordinate, so the weight is real. -/
theorem frac_real (x : EReal) : ∃ r : ℝ, frac x = (r : EReal) := by
  obtain ⟨s, hs⟩ := scaled_real x
  refine ⟨s - ((cellW x).toInt : ℝ), ?_⟩
  unfold frac
  rw [hs, EReal.coe_sub]

/-- The four-corner sum as the reference arranges it. -/
def bilerp (t00 t01 t10 t11 fa fb : EReal) : EReal :=
  t00 * ((one - fa) * (one - fb)) + t01 * ((one - fa) * fb) + t10 * (fa * (one - fb)) + t11 * (fa * fb)

/-- The four-corner sum as the kernel arranges it: along the first table axis, then along the second. -/
def bilerpK (t00 t01 t10 t11 fa fb : EReal) : EReal :=
  (t00 * (one - fa) + t10 * fa) * (one - fb) + (t01 * (one - fa) + t11 * fa) * fb

/-- On real numbers the two arrangements agree (distributivity, which the extended reals lack at the infinities). -/
theorem bilerpK_eq (t00 t01 t10 t11 fa fb : EReal) (h00 : ∃ r : ℝ, t00 = (r : EReal)) (h01 : ∃ r : ℝ, t01 = (r : EReal))
    (h10 : ∃ r : ℝ, t10 = (r : EReal)) (h11 : ∃ r : ℝ, t11 = (r : EReal)) (ha : ∃ r : ℝ, fa = (r : EReal)) (hb : ∃ r : ℝ, fb = (r : EReal)) :
    bilerpK t00 t01 t10 t11 fa fb = bilerp t00 t01 t10 t11 fa fb := by
  obtain ⟨a00, rfl⟩ := h00
  obtain ⟨a01, rfl⟩ := h01
  obtain ⟨a10, rfl⟩ := h10
  obtain ⟨a11, rfl⟩ := h11
  obtain ⟨p, rfl⟩ := ha
  obtain ⟨q, rfl⟩ := hb
  unfold bilerpK bilerp
  rw [one_eq]
  simp only [← EReal.coe_sub, ← EReal.coe_mul, ← EReal.coe_add]
  congr 1
  ring

/-- A sum over the 256 candidates against a two-hot weight (1 − f at k, f at k + 1, zero elsewhere) keeps two terms. -/
theorem twohot_sum (g : Fin 256 → EReal) (k : ℕ) (hk : k + 1 < 256) (f : EReal) :
    (∑ i : Fin 256, g i * (if i.val = k then one - f else if i.val = k + 1 then f else 0))
      = g ⟨k, by omega⟩ * (one - f) + g ⟨k + 1, hk⟩ * f := by
  rw [Finset.sum_eq_add (⟨k, by omega⟩ : Fin 256) (⟨k + 1, hk⟩ : Fin 256)]
  · show g ⟨k, _⟩ * (if k = k then one - f else if k = k + 1 then f else 0)
        + g ⟨k + 1, hk⟩ * (if k + 1 = k then one - f else if k + 1 = k + 1 then f else 0) = _
    rw [if_pos rfl, if_neg (by omega), if_pos rfl]
  · intro h
    have := congrArg Fin.val h
    simp at this
  · intro c _ hc
    have h1 : c.val ≠ k := fun h => hc.1 (Fin.ext h)
    have h2 : c.val ≠ k + 1 := fun h => hc.2 (Fin.ext h)
    rw [if_neg h1, if_neg h2, mul_zero]
  · intro h; exact absurd (Finset.mem_univ _) h
  · intro h; exact absurd (Finset.mem_univ _) h

/-- The result at (b, c, h, w), from the coordinate array `X` and the table `T`. -/
def Gat (X : (⟨4, ![32, 2, 512, 512]⟩ : Shape).Idx → EReal) (T : (⟨4, ![1, 2, 251, 251]⟩ : Shape).Idx → EReal)
    (b : Fin 32) (c : Fin 2) (h w : Fin 512) : EReal :=
  bilerp (T (ix4 (0 : Fin 1) c (⟨cell (X (ix4 b (0 : Fin 2) h w)), by have := cell_le (X (ix4 b (0 : Fin 2) h w)); omega⟩ : Fin 251) (⟨cell (X (ix4 b (1 : Fin 2) h w)), by have := cell_le (X (ix4 b (1 : Fin 2) h w)); omega⟩ : Fin 251)))
    (T (ix4 (0 : Fin 1) c (⟨cell (X (ix4 b (0 : Fin 2) h w)), by have := cell_le (X (ix4 b (0 : Fin 2) h w)); omega⟩ : Fin 251) (⟨cell (X (ix4 b (1 : Fin 2) h w)) + 1, by have := cell_le (X (ix4 b (1 : Fin 2) h w)); omega⟩ : Fin 251)))
    (T (ix4 (0 : Fin 1) c (⟨cell (X (ix4 b (0 : Fin 2) h w)) + 1, by have := cell_le (X (ix4 b (0 : Fin 2) h w)); omega⟩ : Fin 251) (⟨cell (X (ix4 b (1 : Fin 2) h w)), by have := cell_le (X (ix4 b (1 : Fin 2) h w)); omega⟩ : Fin 251)))
    (T (ix4 (0 : Fin 1) c (⟨cell (X (ix4 b (0 : Fin 2) h w)) + 1, by have := cell_le (X (ix4 b (0 : Fin 2) h w)); omega⟩ : Fin 251) (⟨cell (X (ix4 b (1 : Fin 2) h w)) + 1, by have := cell_le (X (ix4 b (1 : Fin 2) h w)); omega⟩ : Fin 251)))
    (frac (X (ix4 b (0 : Fin 2) h w))) (frac (X (ix4 b (1 : Fin 2) h w)))

/-- The whole result array. -/
def G (X : (⟨4, ![32, 2, 512, 512]⟩ : Shape).Idx → EReal) (T : (⟨4, ![1, 2, 251, 251]⟩ : Shape).Idx → EReal) :
    (⟨4, ![32, 2, 512, 512]⟩ : Shape).Idx → EReal :=
  fun j => Gat X T (j 0) (j 1) (j 2) (j 3)

end Cert.Bilerp

end
-- ==== Proof.RowHot.lean ====
/-
  The two-hot selector of a coordinate row read at one candidate index and one lane, on the extended reals: with a the
  lane's coordinate, it is 1 − frac a where the candidate is the cell of a, frac a where it is the next cell, and zero
  elsewhere (the two comparisons cannot both hold, and a zero summand changes nothing).
-/
import proofs.«158236_j32693291057269_1_alg».proof.Proof.RowFn
import proofs.«158236_j32693291057269_1_alg».proof.Proof.Scalar
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Row

open Cert.KernelIdeal Cert.KernelIdeal.Gen Cert.Bilerp Idealize.ShloMosaic Idealize.ShloMosaic.TcCoe Idealize.ShloMosaic.ValueIdx Idealize.SL.Sem
open Idealize.ShloMosaic.Pipeline (Dat)

/-- A lane of the scaled row is the scalar function of the lane's coordinate. -/
private theorem scaledRow_apply (x : Vec Ideal S1x512 .f32) (w : Fin 512) (a : EReal) (ha : x (ix2 (0 : Fin 1) w) = a) :
    scaledRow (F := Ideal) x (ix1 w) = scaled a := by
  unfold scaledRow scaled
  rw [mulf_apply, minimumf_apply, maximumf_apply, shapeCast_1a_a_apply, ha]
  rfl

/-- A lane of the cell row is the cell word of the lane's coordinate. -/
private theorem cellRow_apply (x : Vec Ideal S1x512 .f32) (w : Fin 512) (a : EReal) (ha : x (ix2 (0 : Fin 1) w) = a) :
    cellRow (F := Ideal) x (ix1 w) = cellW a := by
  unfold cellRow cellW
  show IntOp.minsi 249#32 (IntOp.maxsi 0#32 (Ideal.fptosi 32 (Ideal.liftRound Int.floor (scaledRow (F := Ideal) x (ix1 w))))) = _
  rw [scaledRow_apply x w a ha]

/-- A lane of the weight row is the fractional weight of the lane's coordinate. -/
private theorem fracRow_apply (x : Vec Ideal S1x512 .f32) (w : Fin 512) (a : EReal) (ha : x (ix2 (0 : Fin 1) w) = a) :
    fracRow (F := Ideal) x (ix1 w) = frac a := by
  unfold fracRow frac
  rw [subf_apply, sitofp_apply, scaledRow_apply x w a ha, cellRow_apply x w a ha]
  rfl

/-- A lane of the next-cell row is the cell word plus one. -/
private theorem nextRow_apply (x : Vec Ideal S1x512 .f32) (w : Fin 512) (a : EReal) (ha : x (ix2 (0 : Fin 1) w) = a) :
    nextRow (F := Ideal) x (ix1 w) = IntOp.addi (cellW a) 1#32 := by
  unfold nextRow
  show IntOp.addi (cellRow (F := Ideal) x (ix1 w)) 1#32 = _
  rw [cellRow_apply x w a ha]

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on the equality of two small numbers' words is the `if` on the numbers. -/
private theorem select_eq_ofNat {α : Type} (m n : ℕ) (hm : m < 2 ^ 32) (hn : n < 2 ^ 32) (A B : α) :
    Scalar.select (IntOp.cmpi .eq (BitVec.ofNat 32 m) (BitVec.ofNat 32 n)) A B = if m = n then A else B := by
  by_cases h : m = n
  · subst h
    rw [if_pos rfl]
    show (if BitVec.ofBool (BitVec.ofNat 32 m == BitVec.ofNat 32 m) = 1#1 then A else B) = A
    rw [beq_self_eq_true]
    exact if_pos rfl
  · rw [if_neg h]
    have hne : (BitVec.ofNat 32 m == BitVec.ofNat 32 n) = false := by
      rw [beq_eq_false_iff_ne]
      intro e
      have := congrArg BitVec.toNat e
      rw [BitVec.toNat_ofNat, BitVec.toNat_ofNat, Nat.mod_eq_of_lt hm, Nat.mod_eq_of_lt hn] at this
      exact h this
    show (if BitVec.ofBool (BitVec.ofNat 32 m == BitVec.ofNat 32 n) = 1#1 then A else B) = B
    rw [hne]
    exact if_neg (by decide)

/-- The selector at candidate i, lane w. -/
theorem hotOf_apply (x : Vec Ideal S1x512 .f32) (i : Fin 256) (w : Fin 512) (a : EReal) (ha : x (ix2 (0 : Fin 1) w) = a) :
    hotOf (F := Ideal) x (ix2 i w)
      = if i.val = cell a then one - frac a else if i.val = cell a + 1 then frac a else 0 := by
  have hc := cellRow_apply x w a ha
  have hn := nextRow_apply x w a ha
  have hf := fracRow_apply x w a ha
  -- the candidate index, the two cells and the two weights, each read at (i, w)
  have hI : broadcastTo S256x512 (iota .tc S256x1 32 [0] iota_S256x1_d0_w32) broadcasts_S256x1_S256x512 (ix2 i w)
      = BitVec.ofNat 32 i.val := by
    rw [broadcastTo_a1_ab_apply, iota_single_apply]
  have h0 : broadcastTo S256x512 (shapeCast S1x512 (cellRow (F := Ideal) x) shapeCasts_S512_S1x512) broadcasts_S1x512_S256x512 (ix2 i w)
      = cellW a := by
    rw [broadcastTo_1b_ab_apply, shapeCast_a_1a_apply, hc]
  have h1 : broadcastTo S256x512 (shapeCast S1x512 (nextRow (F := Ideal) x) shapeCasts_S512_S1x512) broadcasts_S1x512_S256x512 (ix2 i w)
      = IntOp.addi (cellW a) 1#32 := by
    rw [broadcastTo_1b_ab_apply, shapeCast_a_1a_apply, hn]
  have hA : broadcastTo S256x512 (shapeCast S1x512 (subf (broadcast S1x512 (Scalar.ofBits (F := Ideal) .f32 0x3F800000#32))
        (shapeCast S1x512 (fracRow (F := Ideal) x) shapeCasts_S512_S1x512)) shapeCasts_S1x512_S1x512) broadcasts_S1x512_S256x512 (ix2 i w)
      = one - frac a := by
    rw [broadcastTo_1b_ab_apply, shapeCast_self, subf_apply, shapeCast_a_1a_apply, hf]
    rfl
  have hB : broadcastTo S256x512 (shapeCast S1x512 (shapeCast S1x512 (fracRow (F := Ideal) x) shapeCasts_S512_S1x512) shapeCasts_S1x512_S1x512)
        broadcasts_S1x512_S256x512 (ix2 i w)
      = frac a := by
    rw [broadcastTo_1b_ab_apply, shapeCast_self, shapeCast_a_1a_apply, hf]
  have hi := i.isLt
  have hk := cell_le a
  unfold hotOf twoHot
  rw [addf_apply, select_apply, select_apply]
  show Scalar.select (IntOp.cmpi .eq _ _) _ (Ideal.ofBits .f32 0x00000000#32) + Scalar.select (IntOp.cmpi .eq _ _) _ (Ideal.ofBits .f32 0x00000000#32) = _
  rw [hI, h0, h1, hA, hB, cellW_succ, cellW_eq, Ideal.ofBits_zero_f32,
    select_eq_ofNat i.val (cell a) (by omega) (by omega), select_eq_ofNat i.val (cell a + 1) (by omega) (by omega)]
  -- the candidate is the cell (then it is not the next cell), or it is not
  by_cases e0 : i.val = cell a
  · rw [if_pos e0, if_pos e0, if_neg (by omega), add_zero]
  · rw [if_neg e0, if_neg e0, zero_add]

end Cert.KernelIdeal.Row

end
-- ==== Proof.RowValue.lean ====
/-
  The row function read at one lane, on the extended reals. With a and b the lane's two coordinates, k = cell a and
  l = cell b: the first selector keeps columns k and k + 1 of the table block, so the contraction at row (c, j) is
  L[(c, j), k] (1 − fa) + L[(c, j), k + 1] fa; the second selector keeps rows l and l + 1 of channel c's half, so the lane's
  result is the kernel's arrangement of the four-corner sum over L[(c, l + j'), k + i'].
-/
import proofs.«158236_j32693291057269_1_alg».proof.Proof.RowFn
import proofs.«158236_j32693291057269_1_alg».proof.Proof.RowHot
import proofs.«158236_j32693291057269_1_alg».proof.Proof.Scalar
import Idealize.ShloMosaic.PureOps.Ideal.Laws
import Idealize.ShloMosaic.Lib.Pipeline.Value
import Idealize.ShloMosaic.Lib.ValueLayout

noncomputable section

namespace Cert.KernelIdeal.Row

open Cert.KernelIdeal Cert.KernelIdeal.Gen Cert.Bilerp Idealize.ShloMosaic Idealize.ShloMosaic.TcCoe Idealize.ShloMosaic.ValueIdx Idealize.SL.Sem
open Idealize.ShloMosaic.Pipeline (Dat)

/-! ## The contraction's operand indices, axis by axis

The dimension numbers contract the table block's column axis with the selector's candidate axis: at output index
(r, w) and contraction position q the left operand is read at (r, q) and the right one at (q, w). -/

private theorem lhs_ax0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

private theorem lhs_ax1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

private theorem rhs_ax0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

private theorem rhs_ax1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The table block contracted with the first selector, at row r and lane w: the selector keeps columns k = cell a and
    k + 1, with weights 1 − frac a and frac a. -/
theorem contracted_apply (L : Vec Ideal S512x256 .bf16) (xa : Vec Ideal S1x512 .f32) (r w : Fin 512) (a : EReal)
    (ha : xa (ix2 (0 : Fin 1) w) = a) :
    contracted (F := Ideal) L xa (ix2 r w)
      = L (ix2 r (⟨cell a, by have := cell_le a; omega⟩ : Fin 256)) * (one - frac a)
        + L (ix2 r (⟨cell a + 1, by have := cell_le a; omega⟩ : Fin 256)) * frac a := by
  unfold contracted
  simp only [matmul]
  rw [Ideal.matmul_constant_zero_apply,
    ← Equiv.sum_comp (contrEquiv1 dot_S512x256_S256x512_S512x512_1_0_0_1_n_n 256 rfl rfl).symm]
  refine (Finset.sum_congr rfl fun k _ => ?_).trans
    (twohot_sum (fun i : Fin 256 => L (ix2 r i)) (cell a) (by have := cell_le a; omega) (frac a))
  have hk := contrEquiv1_symm_val dot_S512x256_S256x512_S512x512_1_0_0_1_n_n 256 rfl rfl k
  have el : dot_S512x256_S256x512_S512x512_1_0_0_1_n_n.lhsIdx (ix2 r w)
      ((contrEquiv1 dot_S512x256_S256x512_S512x512_1_0_0_1_n_n 256 rfl rfl).symm k) = ix2 r k :=
    funext fun c => Fin.ext (by
      match c with
      | ⟨0, _⟩ => exact lhs_ax0 _ _
      | ⟨1, _⟩ => exact (lhs_ax1 _ _).trans hk)
  have er : dot_S512x256_S256x512_S512x512_1_0_0_1_n_n.rhsIdx (ix2 r w)
      ((contrEquiv1 dot_S512x256_S256x512_S512x512_1_0_0_1_n_n 256 rfl rfl).symm k) = ix2 k w :=
    funext fun c => Fin.ext (by
      match c with
      | ⟨0, _⟩ => exact (rhs_ax0 _ _).trans hk
      | ⟨1, _⟩ => exact rhs_ax1 _ _)
  rw [el, er, shapeCast_self, truncf_apply, hotOf_apply xa k w a ha]

/-- The source index over lane w with candidate k inserted on the reduced axis is (k, w). -/
private theorem lift_lane (w : Fin 512) (k : Fin 256) :
    reduces_S256x512_S512.lift (ix1 w) k = ix2 k w :=
  funext fun c => Fin.ext (by
    match c with
    | ⟨0, _⟩ => rfl
    | ⟨1, _⟩ => rfl)

/-- Channel 0 at lane w: rows l, l + 1 and columns k, k + 1 of the table block. -/
theorem rowOut0_apply (L : Vec Ideal S512x256 .bf16) (xa xb : Vec Ideal S1x512 .f32) (w : Fin 512) (a b : EReal)
    (ha : xa (ix2 (0 : Fin 1) w) = a) (hb : xb (ix2 (0 : Fin 1) w) = b) :
    rowOut0 (F := Ideal) L xa xb (ix2 (0 : Fin 1) w)
      = bilerpK (L (ix2 (⟨cell b, by have := cell_le b; omega⟩ : Fin 512) (⟨cell a, by have := cell_le a; omega⟩ : Fin 256)))
          (L (ix2 (⟨cell b + 1, by have := cell_le b; omega⟩ : Fin 512) (⟨cell a, by have := cell_le a; omega⟩ : Fin 256)))
          (L (ix2 (⟨cell b, by have := cell_le b; omega⟩ : Fin 512) (⟨cell a + 1, by have := cell_le a; omega⟩ : Fin 256)))
          (L (ix2 (⟨cell b + 1, by have := cell_le b; omega⟩ : Fin 512) (⟨cell a + 1, by have := cell_le a; omega⟩ : Fin 256)))
          (frac a) (frac b) := by
  unfold rowOut0
  refine (shapeCast_a_1a_apply _ shapeCasts_S512_S1x512 (0 : Fin 1) w).trans ?_
  refine (Ideal.multiReduction_add_single _ _ reduces_S256x512_S512 _ _ (ix1 w)).trans ?_
  refine (Finset.sum_congr rfl fun (k : Fin 256) _ => ?_).trans
    (twohot_sum
      (fun k : Fin 256 =>
        L (ix2 (⟨k.val, by omega⟩ : Fin 512) (⟨cell a, by have := cell_le a; omega⟩ : Fin 256)) * (one - frac a)
          + L (ix2 (⟨k.val, by omega⟩ : Fin 512) (⟨cell a + 1, by have := cell_le a; omega⟩ : Fin 256)) * frac a)
      (cell b) (by have := cell_le b; omega) (frac b))
  have hs : extractStridedSlice S256x512 ![0, 0] (contracted (F := Ideal) L xa) slices_S512x512_o0_0_S256x512 (ix2 k w)
      = contracted (F := Ideal) L xa (ix2 (⟨k.val, by omega⟩ : Fin 512) w) :=
    extractStridedSlice_apply _ _ _ _ _ (fun c => by
      match c with
      | ⟨0, _⟩ => show k.val = 0 + k.val; omega
      | ⟨1, _⟩ => show w.val = 0 + w.val; omega)
  rw [lift_lane, mulf_apply, hs, contracted_apply L xa _ w a ha, hotOf_apply xb k w b hb]

/-- Channel 1 at lane w: the same over the block's second half of rows. -/
theorem rowOut1_apply (L : Vec Ideal S512x256 .bf16) (xa xb : Vec Ideal S1x512 .f32) (w : Fin 512) (a b : EReal)
    (ha : xa (ix2 (0 : Fin 1) w) = a) (hb : xb (ix2 (0 : Fin 1) w) = b) :
    rowOut1 (F := Ideal) L xa xb (ix2 (0 : Fin 1) w)
      = bilerpK (L (ix2 (⟨256 + cell b, by have := cell_le b; omega⟩ : Fin 512) (⟨cell a, by have := cell_le a; omega⟩ : Fin 256)))
          (L (ix2 (⟨256 + cell b + 1, by have := cell_le b; omega⟩ : Fin 512) (⟨cell a, by have := cell_le a; omega⟩ : Fin 256)))
          (L (ix2 (⟨256 + cell b, by have := cell_le b; omega⟩ : Fin 512) (⟨cell a + 1, by have := cell_le a; omega⟩ : Fin 256)))
          (L (ix2 (⟨256 + cell b + 1, by have := cell_le b; omega⟩ : Fin 512) (⟨cell a + 1, by have := cell_le a; omega⟩ : Fin 256)))
          (frac a) (frac b) := by
  unfold rowOut1
  refine (shapeCast_a_1a_apply _ shapeCasts_S512_S1x512 (0 : Fin 1) w).trans ?_
  refine (Ideal.multiReduction_add_single _ _ reduces_S256x512_S512 _ _ (ix1 w)).trans ?_
  refine (Finset.sum_congr rfl fun (k : Fin 256) _ => ?_).trans
    (twohot_sum
      (fun k : Fin 256 =>
        L (ix2 (⟨256 + k.val, by omega⟩ : Fin 512) (⟨cell a, by have := cell_le a; omega⟩ : Fin 256)) * (one - frac a)
          + L (ix2 (⟨256 + k.val, by omega⟩ : Fin 512) (⟨cell a + 1, by have := cell_le a; omega⟩ : Fin 256)) * frac a)
      (cell b) (by have := cell_le b; omega) (frac b))
  have hs : extractStridedSlice S256x512 ![256, 0] (contracted (F := Ideal) L xa) slices_S512x512_o256_0_S256x512 (ix2 k w)
      = contracted (F := Ideal) L xa (ix2 (⟨256 + k.val, by omega⟩ : Fin 512) w) :=
    extractStridedSlice_apply _ _ _ _ _ (fun c => by
      match c with
      | ⟨0, _⟩ => show 256 + k.val = 256 + k.val; rfl
      | ⟨1, _⟩ => show w.val = 0 + w.val; omega)
  rw [lift_lane, mulf_apply, hs, contracted_apply L xa _ w a ha, hotOf_apply xb k w b hb]

end Cert.KernelIdeal.Row

end
-- ==== Proof.KernelValue.lean ====
/-
  The kernel's whole run on the extended reals: the result buffer ends at the specification `G` of the two arguments,
  given that the table's entries are real (the one place the two arrangements of the four-corner sum are joined).
  At (b, c, h, w): the result is channel c's output array at row R = 512 b + h, lane w; that is the row function of the
  staged table and row R of the two coordinate arrays at lane w; row R, lane w of the coordinate arrays is
  x[b, 0, h, w] and x[b, 1, h, w]; the row function at a lane is the kernel's arrangement of the four corners
  L[256 c + l + j', k + i'] of the staged table, which inside the table are T[c, k + i', l + j'].
-/
import proofs.«158236_j32693291057269_1_alg».proof.Proof.Blocks
import proofs.«158236_j32693291057269_1_alg».proof.Proof.HostIn
import proofs.«158236_j32693291057269_1_alg».proof.Proof.HostOut
import proofs.«158236_j32693291057269_1_alg».proof.Proof.RowValue
import proofs.«158236_j32693291057269_1_alg».proof.Proof.Scalar

noncomputable section

namespace Cert.KernelIdeal.Whole

open Cert.KernelIdeal Cert.KernelIdeal.Gen Cert.Bilerp Idealize.ShloMosaic Idealize.ShloMosaic.TcCoe Idealize.ShloMosaic.ValueIdx Idealize.SL.Sem
open Idealize.ShloMosaic.Pipeline (Dat)
open Cert.KernelIdeal.Row Cert.KernelIdeal.Blocks Cert.KernelIdeal.HostIn Cert.KernelIdeal.HostOut

variable (m : (ℓ : Loc nD τ sig) → Buf (Elt Ideal) ℓ) (ρ : Dev nD → PrngReg)

/-- The staged table at a row and column given by their numbers. -/
theorem lut_at (c : Dev nD) (ch : Fin 2) (r : Fin 512) (q : Fin 256) (j i : ℕ) (hj : j < 251) (hi : i < 251)
    (hr : r.val = 256 * ch.val + j) (hq : q.val = i) :
    (V m c main_v4 : S512x256.Idx → EReal) (ix2 r q)
      = (m ((c : Thread nD τ).loc main_arg1) : S1x2x251x251.Idx → EReal) (ix4 (0 : Fin 1) ch (⟨i, hi⟩ : Fin 251) (⟨j, hj⟩ : Fin 251)) := by
  obtain ⟨rv, hrv⟩ := r
  obtain ⟨qv, hqv⟩ := q
  simp only at hr hq
  subst hr hq
  exact V_lut m c ch j qv hj hi

/-- The kernel's arrangement of four real corners of the table is the specification's entry: a pure statement over
    the coordinate array `X`, the table `T` and the four corner values. -/
theorem entry_pure (X : S32x2x512x512.Idx → EReal) (T : S1x2x251x251.Idx → EReal) (hT : ∀ i, ∃ r : ℝ, T i = (r : EReal))
    (ch : Fin 2) (b : Fin 32) (h w : Fin 512) (a b' : EReal) (ha : X (ix4 b (0 : Fin 2) h w) = a) (hb : X (ix4 b (1 : Fin 2) h w) = b')
    (l00 l01 l10 l11 : EReal)
    (h00 : l00 = T (ix4 (0 : Fin 1) ch (⟨cell a, by have := cell_le a; omega⟩ : Fin 251) (⟨cell b', by have := cell_le b'; omega⟩ : Fin 251)))
    (h01 : l01 = T (ix4 (0 : Fin 1) ch (⟨cell a, by have := cell_le a; omega⟩ : Fin 251) (⟨cell b' + 1, by have := cell_le b'; omega⟩ : Fin 251)))
    (h10 : l10 = T (ix4 (0 : Fin 1) ch (⟨cell a + 1, by have := cell_le a; omega⟩ : Fin 251) (⟨cell b', by have := cell_le b'; omega⟩ : Fin 251)))
    (h11 : l11 = T (ix4 (0 : Fin 1) ch (⟨cell a + 1, by have := cell_le a; omega⟩ : Fin 251) (⟨cell b' + 1, by have := cell_le b'; omega⟩ : Fin 251))) :
    bilerpK l00 l01 l10 l11 (frac a) (frac b') = Gat X T b ch h w := by
  subst ha hb h00 h01 h10 h11
  unfold Gat
  exact bilerpK_eq _ _ _ _ _ _ (hT _) (hT _) (hT _) (hT _) (frac_real _) (frac_real _)

/-- Row 512 b + h, lane w of the first coordinate array is x[b, 0, h, w]. -/
theorem xa_at (c : Dev nD) (b : Fin 32) (h w : Fin 512) :
    (V m c main_v7 : S16384x512.Idx → EReal) (ix2 (⟨b.val * 512 + h.val, by omega⟩ : Fin 16384) w)
      = (m ((c : Thread nD τ).loc main_arg0) : S32x2x512x512.Idx → EReal) (ix4 b (0 : Fin 2) h w) := by
  rw [V_xa m c (⟨b.val * 512 + h.val, by omega⟩ : Fin 16384) w]
  congr 1
  funext d
  refine Fin.ext ?_
  match d with
  | ⟨0, _⟩ => show (b.val * 512 + h.val) / 512 = b.val; omega
  | ⟨1, _⟩ => rfl
  | ⟨2, _⟩ => show (b.val * 512 + h.val) % 512 = h.val; omega
  | ⟨3, _⟩ => rfl

/-- Row 512 b + h, lane w of the second coordinate array is x[b, 1, h, w]. -/
theorem xb_at (c : Dev nD) (b : Fin 32) (h w : Fin 512) :
    (V m c main_v10 : S16384x512.Idx → EReal) (ix2 (⟨b.val * 512 + h.val, by omega⟩ : Fin 16384) w)
      = (m ((c : Thread nD τ).loc main_arg0) : S32x2x512x512.Idx → EReal) (ix4 b (1 : Fin 2) h w) := by
  rw [V_xb m c (⟨b.val * 512 + h.val, by omega⟩ : Fin 16384) w]
  congr 1
  funext d
  refine Fin.ext ?_
  match d with
  | ⟨0, _⟩ => show (b.val * 512 + h.val) / 512 = b.val; omega
  | ⟨1, _⟩ => rfl
  | ⟨2, _⟩ => show (b.val * 512 + h.val) % 512 = h.val; omega
  | ⟨3, _⟩ => rfl

/-- Channel 0's output array at (512 b + h, w) is the specification at (b, 0, h, w). -/
theorem kout0_at (c : Dev nD) (b : Fin 32) (h w : Fin 512)
    (hT : ∀ i : S1x2x251x251.Idx, ∃ r : ℝ, (m ((c : Thread nD τ).loc main_arg1) : S1x2x251x251.Idx → EReal) i = (r : EReal)) :
    kout0 m c (ix2 (⟨b.val * 512 + h.val, by omega⟩ : Fin 16384) w)
      = Gat (m ((c : Thread nD τ).loc main_arg0) : S32x2x512x512.Idx → EReal) (m ((c : Thread nD τ).loc main_arg1) : S1x2x251x251.Idx → EReal) b (0 : Fin 2) h w := by
  have ka := cell_le ((m ((c : Thread nD τ).loc main_arg0) : S32x2x512x512.Idx → EReal) (ix4 b (0 : Fin 2) h w))
  have kb := cell_le ((m ((c : Thread nD τ).loc main_arg0) : S32x2x512x512.Idx → EReal) (ix4 b (1 : Fin 2) h w))
  refine (rowOut0_apply (V m c main_v4) _ _ w _ _ (xa_at m c b h w) (xb_at m c b h w)).trans ?_
  exact entry_pure _ _ hT (0 : Fin 2) b h w _ _ rfl rfl _ _ _ _
    (lut_at m c (0 : Fin 2) _ _ _ _ (by omega) (by omega) (by simp only [Fin.val_mk, Fin.val_zero, Fin.isValue] <;> omega) rfl)
    (lut_at m c (0 : Fin 2) _ _ _ _ (by omega) (by omega) (by simp only [Fin.val_mk, Fin.val_zero, Fin.isValue] <;> omega) rfl)
    (lut_at m c (0 : Fin 2) _ _ _ _ (by omega) (by omega) (by simp only [Fin.val_mk, Fin.val_zero, Fin.isValue] <;> omega) rfl)
    (lut_at m c (0 : Fin 2) _ _ _ _ (by omega) (by omega) (by simp only [Fin.val_mk, Fin.val_zero, Fin.isValue] <;> omega) rfl)

/-- Channel 1's output array at (512 b + h, w) is the specification at (b, 1, h, w). -/
theorem kout1_at (c : Dev nD) (b : Fin 32) (h w : Fin 512)
    (hT : ∀ i : S1x2x251x251.Idx, ∃ r : ℝ, (m ((c : Thread nD τ).loc main_arg1) : S1x2x251x251.Idx → EReal) i = (r : EReal)) :
    kout1 m c (ix2 (⟨b.val * 512 + h.val, by omega⟩ : Fin 16384) w)
      = Gat (m ((c : Thread nD τ).loc main_arg0) : S32x2x512x512.Idx → EReal) (m ((c : Thread nD τ).loc main_arg1) : S1x2x251x251.Idx → EReal) b (1 : Fin 2) h w := by
  have ka := cell_le ((m ((c : Thread nD τ).loc main_arg0) : S32x2x512x512.Idx → EReal) (ix4 b (0 : Fin 2) h w))
  have kb := cell_le ((m ((c : Thread nD τ).loc main_arg0) : S32x2x512x512.Idx → EReal) (ix4 b (1 : Fin 2) h w))
  refine (rowOut1_apply (V m c main_v4) _ _ w _ _ (xa_at m c b h w) (xb_at m c b h w)).trans ?_
  exact entry_pure _ _ hT (1 : Fin 2) b h w _ _ rfl rfl _ _ _ _
    (lut_at m c (1 : Fin 2) _ _ _ _ (by omega) (by omega) (by simp only [Fin.val_mk, Fin.val_one, Fin.isValue] <;> omega) rfl)
    (lut_at m c (1 : Fin 2) _ _ _ _ (by omega) (by omega) (by simp only [Fin.val_mk, Fin.val_one, Fin.isValue] <;> omega) rfl)
    (lut_at m c (1 : Fin 2) _ _ _ _ (by omega) (by omega) (by simp only [Fin.val_mk, Fin.val_one, Fin.isValue] <;> omega) rfl)
    (lut_at m c (1 : Fin 2) _ _ _ _ (by omega) (by omega) (by simp only [Fin.val_mk, Fin.val_one, Fin.isValue] <;> omega) rfl)

/-- The two output arrays stacked are the specification. -/
theorem stacked_eq (c : Dev nD)
    (hT : ∀ i : S1x2x251x251.Idx, ∃ r : ℝ, (m ((c : Thread nD τ).loc main_arg1) : S1x2x251x251.Idx → EReal) i = (r : EReal)) :
    stack (kout0 m c) (kout1 m c)
      = G (m ((c : Thread nD τ).loc main_arg0) : S32x2x512x512.Idx → EReal) (m ((c : Thread nD τ).loc main_arg1) : S1x2x251x251.Idx → EReal) := by
  funext j
  obtain ⟨b, ch, h, w, rfl⟩ : ∃ (b : Fin 32) (ch : Fin 2) (h w : Fin 512), j = ix4 b ch h w := ⟨j 0, j 1, j 2, j 3, eq_ix4 j⟩
  match ch with
  | ⟨0, _⟩ => exact (if_pos rfl).trans (kout0_at m c b h w hT)
  | ⟨1, _⟩ => exact (if_neg Nat.one_ne_zero).trans (kout1_at m c b h w hT)

/-- The run: the result at the specification, the arguments unchanged. -/
theorem run
    (hT : ∀ (c : Dev nD) (i : S1x2x251x251.Idx), ∃ r : ℝ, (m ((c : Thread nD τ).loc main_arg1) : S1x2x251x251.Idx → EReal) i = (r : EReal)) :
    θ_run defs (onTc (τ := τ) (main (F := Ideal))) ⟨m, fun _ => 0, ρ⟩ fun r => ∀ c : Dev nD,
      r.2.mem ((c.tc : Thread nD τ).loc main_v16)
          = G (m ((c : Thread nD τ).loc main_arg0) : S32x2x512x512.Idx → EReal) (m ((c : Thread nD τ).loc main_arg1) : S1x2x251x251.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v16 (Pipeline.mem_restRefs_of main_v16 (by decide) (by decide))).trans ?_
    refine (tail_eq m c).trans ?_
    rw [final3 m c, final4 m c]
    exact stacked_eq m c (hT c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Whole

end
-- ==== Proof.Gather.lean ====
/-
  The reference's table lookup read at an index. The lookup takes, for result (c, b, h, w), the pair of start indices
  idx[b, h, w, 0] and idx[b, h, w, 1], each read signed and clamped into [0, 250], and returns the table's entry at
  channel c and that pair. The pairs are two index arrays joined along a last axis of extent 2.
-/
import proofs.«158236_j32693291057269_1_alg».proof.ReferenceIdeal
import Idealize.ShloMosaic.Lib.Pipeline.Value
import Idealize.ShloMosaic.Lib.ValueIdx

noncomputable section

namespace Cert.ReferenceIdeal.Gather

open Cert.ReferenceIdeal Idealize.ShloMosaic Idealize.ShloMosaic.TcCoe Idealize.ShloMosaic.ValueIdx Idealize.SL.Sem

-- the shape facts of the program (the lookup's dimension numbers and the join's extents are stated over them)
variable [Facts₀]
open Facts₀

/-- The lookup's dimension numbers: offset axis 0 of the result reads operand axis 0 whole (extent 2); operand axes 1
    and 2 are collapsed (slice extent 1) and are the two the start index addresses, component 0 for axis 1 and
    component 1 for axis 2; the start indices' last axis (3) holds the components. -/
local notation "gd" => gather_S2x251x251_S32x512x512x2_S2x32x512x512_0_12_n_n_12_3_211

/-! Which operand axes the start index addresses and which are collapsed: axes 1 and 2 in both lists, axis 0 in neither. -/

private theorem m1 : (1 : Fin S2x251x251.rank) ∈ (GatherDims.startIndexMap gd) := by
  show (1 : Fin 3) ∈ ([1, 2] : List (Fin 3)); decide
private theorem m2 : (2 : Fin S2x251x251.rank) ∈ (GatherDims.startIndexMap gd) := by
  show (2 : Fin 3) ∈ ([1, 2] : List (Fin 3)); decide
private theorem m0 : (0 : Fin S2x251x251.rank) ∉ (GatherDims.startIndexMap gd) := by
  show (0 : Fin 3) ∉ ([1, 2] : List (Fin 3)); decide
private theorem c1 : (1 : Fin S2x251x251.rank) ∈ (GatherDims.collapsedSliceDims gd) := by
  show (1 : Fin 3) ∈ ([1, 2] : List (Fin 3)); decide
private theorem c2 : (2 : Fin S2x251x251.rank) ∈ (GatherDims.collapsedSliceDims gd) := by
  show (2 : Fin 3) ∈ ([1, 2] : List (Fin 3)); decide
private theorem c0 : (0 : Fin S2x251x251.rank) ∉ (GatherDims.collapsedSliceDims gd) := by
  show (0 : Fin 3) ∉ ([1, 2] : List (Fin 3)); decide

/-- The lookup at (c, b, h, w): the table at channel c and the clamped pair of start indices. -/
theorem gather_apply {α : Type} (x : S2x251x251.Idx → α) (idx : IVec S32x512x512x2 32) (c : Fin 2) (b : Fin 32) (h w : Fin 512) :
    Host.gather gather_S2x251x251_S32x512x512x2_S2x32x512x512_0_12_n_n_12_3_211 x idx (ix4 c b h w)
      = x (ix3 c (⟨min (idx (ix4 b h w (0 : Fin 2))).toInt.toNat 250, by omega⟩ : Fin 251)
            (⟨min (idx (ix4 b h w (1 : Fin 2))).toInt.toNat 250, by omega⟩ : Fin 251)) := by
  -- the lookup reads the operand at the operand index: compare the two operand indices axis by axis, as numbers;
  -- on every axis the operand coordinate is start + batching coordinate + offset coordinate, and no axis is batching
  unfold Host.gather
  congr 1
  funext a
  refine Fin.ext ?_
  match a with
  | ⟨0, _⟩ =>
    -- axis 0 is not addressed by the start index (start 0) and is kept: its coordinate is the result's on offset axis 0
    show GatherDims.start gd (ix4 c b h w) idx 0 + GatherDims.batchCoord gd (ix4 c b h w) 0 + GatherDims.offCoord gd (ix4 c b h w) 0 = c.val
    rw [GatherDims.batchCoord_eq_zero _ _ _ List.not_mem_nil]
    unfold GatherDims.start
    rw [dif_neg m0]
    simp only [Nat.zero_add]
    unfold GatherDims.offCoord
    rw [dif_pos ((GatherDims.mem_sKept _ _).mpr ⟨c0, List.not_mem_nil⟩)]
    rfl
  | ⟨1, _⟩ =>
    -- axis 1 is collapsed (offset 0) and addressed by component 0 of the start index, clamped into [0, 251 - 1]
    show GatherDims.start gd (ix4 c b h w) idx 1 + GatherDims.batchCoord gd (ix4 c b h w) 1 + GatherDims.offCoord gd (ix4 c b h w) 1 = _
    rw [GatherDims.batchCoord_eq_zero _ _ _ List.not_mem_nil,
      GatherDims.offCoord_eq_zero _ _ _ (fun hm => ((GatherDims.mem_sKept _ _).mp hm).1 c1)]
    simp only [Nat.add_zero]
    unfold GatherDims.start
    rw [dif_pos m1]
    -- component 0 is read at the result's batch coordinates (b, h, w) with 0 on the components' axis
    have hsi : GatherDims.siIdx gd (ix4 c b h w) ⟨List.idxOf (1 : Fin S2x251x251.rank) (GatherDims.startIndexMap gd),
        List.idxOf_lt_length_iff.2 m1⟩ = ix4 b h w (0 : Fin 2) := by
      funext k; refine Fin.ext ?_
      match k with
      | ⟨0, _⟩ => rfl
      | ⟨1, _⟩ => rfl
      | ⟨2, _⟩ => rfl
      | ⟨3, _⟩ => rfl
    rw [hsi]
    rfl
  | ⟨2, _⟩ =>
    -- axis 2 likewise, addressed by component 1 of the start index
    show GatherDims.start gd (ix4 c b h w) idx 2 + GatherDims.batchCoord gd (ix4 c b h w) 2 + GatherDims.offCoord gd (ix4 c b h w) 2 = _
    rw [GatherDims.batchCoord_eq_zero _ _ _ List.not_mem_nil,
      GatherDims.offCoord_eq_zero _ _ _ (fun hm => ((GatherDims.mem_sKept _ _).mp hm).1 c2)]
    simp only [Nat.add_zero]
    unfold GatherDims.start
    rw [dif_pos m2]
    have hsi : GatherDims.siIdx gd (ix4 c b h w) ⟨List.idxOf (2 : Fin S2x251x251.rank) (GatherDims.startIndexMap gd),
        List.idxOf_lt_length_iff.2 m2⟩ = ix4 b h w (1 : Fin 2) := by
      funext k; refine Fin.ext ?_
      match k with
      | ⟨0, _⟩ => rfl
      | ⟨1, _⟩ => rfl
      | ⟨2, _⟩ => rfl
      | ⟨3, _⟩ => rfl
    rw [hsi]
    rfl

/-- Component 0 of a joined pair is the first array's entry. -/
theorem pair_apply0 {α : Type} (p q : S32x512x512x1.Idx → α) (b : Fin 32) (h w : Fin 512) :
    concatenate S32x512x512x2 3 [⟨S32x512x512x1, p⟩, ⟨S32x512x512x1, q⟩] concatenates_S32x512x512x1_S32x512x512x1_S32x512x512x2_d3
        (ix4 b h w (0 : Fin 2)) = p (ix4 b h w (0 : Fin 1)) := by
  -- position 0 on the joined axis is below the first piece's extent 1: the first piece, at the same coordinates
  refine concatenate_pair_apply_left (3 : Fin 4) p q _ (ix4 b h w (0 : Fin 2)) rfl (ix4 b h w (0 : Fin 1)) ?_
  intro k
  match k with
  | ⟨0, _⟩ => rfl
  | ⟨1, _⟩ => rfl
  | ⟨2, _⟩ => rfl
  | ⟨3, _⟩ => rfl

/-- Component 1 of a joined pair is the second array's entry. -/
theorem pair_apply1 {α : Type} (p q : S32x512x512x1.Idx → α) (b : Fin 32) (h w : Fin 512) :
    concatenate S32x512x512x2 3 [⟨S32x512x512x1, p⟩, ⟨S32x512x512x1, q⟩] concatenates_S32x512x512x1_S32x512x512x1_S32x512x512x2_d3
        (ix4 b h w (1 : Fin 2)) = q (ix4 b h w (0 : Fin 1)) := by
  -- position 1 on the joined axis is past the first piece's extent 1: the second piece at position 1 - 1 = 0,
  -- the other coordinates the same
  refine concatenate_pair_apply_right (3 : Fin 4) p q _ (ix4 b h w (1 : Fin 2)) rfl rfl (ix4 b h w (0 : Fin 1)) ?_ rfl
  intro k hk
  match k, hk with
  | ⟨0, _⟩, _ => rfl
  | ⟨1, _⟩, _ => rfl
  | ⟨2, _⟩, _ => rfl
  | ⟨3, _⟩, hk => exact absurd rfl hk

end Cert.ReferenceIdeal.Gather

end
-- ==== Proof.RefValue.lean ====
/-
  The reference's result is the specification: read at (b, c, h, w) through its operations one at a time, the four
  lookups are the table at the cell pairs (k, l), (k, l + 1), (k + 1, l), (k + 1, l + 1) — the cells lie in [0, 249], so
  neither the wrap of negative indices nor the lookup's clamp moves them — and the four weights are the products of
  1 − fa or fa with 1 − fb or fb.
-/
import proofs.«158236_j32693291057269_1_alg».proof.Proof.Gen.ReferenceIdeal.Read
import proofs.«158236_j32693291057269_1_alg».proof.Proof.Gather
import proofs.«158236_j32693291057269_1_alg».proof.Proof.Scalar
import Idealize.ShloMosaic.Lib.Pipeline.Value
import Idealize.ShloMosaic.Lib.ValueLayout

noncomputable section

namespace Cert.ReferenceIdeal.RefValue

open Cert.ReferenceIdeal Cert.Bilerp Idealize.ShloMosaic Idealize.ShloMosaic.TcCoe Idealize.ShloMosaic.ValueIdx Idealize.SL.Sem
open Cert.ReferenceIdeal.Read
open Cert.ReferenceIdeal.Gather

/-! ## Indices: each layout stage's source index at an index given by coordinates -/

/-- The flat position (b·512 + h)·512 + w splits back into (b, 0, h, w). -/
private theorem idx3 (b : Fin 32) (h w : Fin 512) : idx_main_v3 (ix3 b h w) = ix4 b (0 : Fin 1) h w := by
  funext a
  refine Fin.ext ?_
  have hb := b.isLt
  have hh := h.isLt
  have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Channel 0 of the slice at offset 0 is channel 0 of the array. -/
private theorem idx2 (b : Fin 32) (h w : Fin 512) : idx_main_v2 (ix4 b (0 : Fin 1) h w) = ix4 b (0 : Fin 2) h w := by
  funext a
  match a with
  | ⟨0, _⟩ => rfl
  | ⟨1, _⟩ => rfl
  | ⟨2, _⟩ => rfl
  | ⟨3, _⟩ => rfl

/-- Channel 0 of the slice at offset 1 is channel 1 of the array. -/
private theorem idx6 (b : Fin 32) (h w : Fin 512) : idx_main_v6 (ix4 b (0 : Fin 1) h w) = ix4 b (1 : Fin 2) h w := by
  funext a
  match a with
  | ⟨0, _⟩ => rfl
  | ⟨1, _⟩ => rfl
  | ⟨2, _⟩ => rfl
  | ⟨3, _⟩ => rfl

/-- An index array given a trailing unit axis is read at its first three coordinates. -/
private theorem idx34 (b : Fin 32) (h w : Fin 512) : idx_main_v34 (ix4 b h w (0 : Fin 1)) = ix3 b h w := by
  funext a
  match a with
  | ⟨0, _⟩ => rfl
  | ⟨1, _⟩ => rfl
  | ⟨2, _⟩ => rfl

/-- A weight array broadcast along the two channels is read at (b, h, w). -/
private theorem idx92 (c : Fin 2) (b : Fin 32) (h w : Fin 512) : idx_main_v92 (idx_main_v93 (ix4 c b h w)) = ix3 b h w := by
  funext a
  match a with
  | ⟨0, _⟩ => rfl
  | ⟨1, _⟩ => rfl
  | ⟨2, _⟩ => rfl

/-- The last stage exchanges the first two axes. -/
private theorem idx107 (b : Fin 32) (c : Fin 2) (h w : Fin 512) : idx_main_v107 (ix4 b c h w) = ix4 c b h w := by
  funext a
  match a with
  | ⟨0, _⟩ => rfl
  | ⟨1, _⟩ => rfl
  | ⟨2, _⟩ => rfl
  | ⟨3, _⟩ => rfl

/-- The table with its unit axis dropped: (c, k, l) is (0, c, k, l). -/
private theorem idx0 (c : Fin 2) (k l : Fin 251) : idx_main_v0 (ix3 c k l) = ix4 (0 : Fin 1) c k l := by
  funext a
  refine Fin.ext ?_
  have hc := c.isLt
  have hk := k.isLt
  have hl := l.isLt
  match a with
  | ⟨0, _⟩ => rfl
  | ⟨1, _⟩ => show ((c.val * 251 + k.val) * 251 + l.val) / 63001 % 2 = c.val; omega
  | ⟨2, _⟩ => show ((c.val * 251 + k.val) * 251 + l.val) / 251 % 251 = k.val; omega
  | ⟨3, _⟩ => show ((c.val * 251 + k.val) * 251 + l.val) % 251 = l.val; omega

section Stages

variable (X : (⟨S32x2x512x512, .f32⟩ : BufTy).Contents (Elt Ideal)) (T : (⟨S1x2x251x251, .f32⟩ : BufTy).Contents (Elt Ideal))
variable (b : Fin 32) (c : Fin 2) (h w : Fin 512)

/-! ## The coordinates: clamp to [0, 1], scale by 250 -/

/-- The clamped coordinate array at any index. -/
private theorem v1_at (i : S32x2x512x512.Idx) :
    val_main_v1 (F := Ideal) X i
      = min (Ideal.ofBits .f32 0x3F800000#32) (max (Ideal.ofBits .f32 0x00000000#32) (X i)) := by
  rw [val_main_v1_apply, val_main_call0_v4_apply, val_main_call0_v2_apply, val_main_call0_v1_apply]
  rfl

/-- The first scaled coordinate. -/
private theorem v5_at : val_main_v5 (F := Ideal) X (ix3 b h w) = scaled (X (ix4 b (0 : Fin 2) h w)) := by
  rw [val_main_v5_apply, val_main_v3_apply, idx3, val_main_v2_apply, idx2, v1_at, val_main_v4_apply]
  rfl

/-- The second scaled coordinate. -/
private theorem v9_at : val_main_v9 (F := Ideal) X (ix3 b h w) = scaled (X (ix4 b (1 : Fin 2) h w)) := by
  rw [val_main_v9_apply, val_main_v7_apply, show idx_main_v7 (ix3 b h w) = ix4 b (0 : Fin 1) h w from idx3 b h w,
    val_main_v6_apply, idx6, v1_at, val_main_v8_apply]
  rfl

/-! ## The cells: floor, convert, clamp to [0, 249] -/

/-- The first cell word. -/
private theorem v12_at : val_main_v12 (F := Ideal) X (ix3 b h w) = cellW (X (ix4 b (0 : Fin 2) h w)) := by
  rw [val_main_v12_apply, val_main_call1_v4_apply, val_main_call1_v2_apply, val_main_call1_v1_apply, val_main_v11_apply,
    val_main_v10_apply, v5_at]
  rfl

/-- The second cell word. -/
private theorem v15_at : val_main_v15 (F := Ideal) X (ix3 b h w) = cellW (X (ix4 b (1 : Fin 2) h w)) := by
  rw [val_main_v15_apply, val_main_call2_v4_apply, val_main_call2_v2_apply, val_main_call2_v1_apply, val_main_v14_apply,
    val_main_v13_apply, v9_at]
  rfl

/-- The first fractional weight. -/
private theorem v17_at : val_main_v17 (F := Ideal) X (ix3 b h w) = frac (X (ix4 b (0 : Fin 2) h w)) := by
  rw [val_main_v17_apply, val_main_v16_apply, v5_at, v12_at]
  rfl

/-- The second fractional weight. -/
private theorem v19_at : val_main_v19 (F := Ideal) X (ix3 b h w) = frac (X (ix4 b (1 : Fin 2) h w)) := by
  rw [val_main_v19_apply, val_main_v18_apply, v9_at, v15_at]
  rfl

/-- The first next-cell word. -/
private theorem v21_at : val_main_v21 (F := Ideal) X (ix3 b h w) = IntOp.addi (cellW (X (ix4 b (0 : Fin 2) h w))) 1#32 := by
  rw [val_main_v21_apply, v12_at, val_main_v20_apply]
  rfl

/-- The second next-cell word. -/
private theorem v23_at : val_main_v23 (F := Ideal) X (ix3 b h w) = IntOp.addi (cellW (X (ix4 b (1 : Fin 2) h w))) 1#32 := by
  rw [val_main_v23_apply, v15_at, val_main_v22_apply]
  rfl

end Stages

/-! ## The wrap of negative indices does nothing: the cells are not negative -/

/-- A select on "z is negative, read signed" keeps z where z is not negative. -/
private theorem wrap_nonneg (z y : BitVec 32) (hz : 0 ≤ z.toInt) : Scalar.select (IntOp.cmpi .slt z 0#32) y z = z := by
  have hlt : z.slt 0#32 = false := by
    simp only [BitVec.slt, BitVec.toInt_zero, decide_eq_false_iff_not, Int.not_lt]
    exact hz
  show (if BitVec.ofBool (z.slt 0#32) = 1 then y else z) = z
  rw [hlt]
  rfl

/-- A start index that reads signed as a number k ≤ 250 is clamped to k. -/
private theorem clampFin (z : BitVec 32) (k : ℕ) (hk : k ≤ 250) (hz : z.toInt = (k : ℤ)) (p : min z.toInt.toNat 250 < 251) :
    (⟨min z.toInt.toNat 250, p⟩ : Fin 251) = ⟨k, by omega⟩ := by
  refine Fin.ext ?_
  show min z.toInt.toNat 250 = k
  rw [hz]
  omega

section Stages2

variable (X : (⟨S32x2x512x512, .f32⟩ : BufTy).Contents (Elt Ideal)) (T : (⟨S1x2x251x251, .f32⟩ : BufTy).Contents (Elt Ideal))
variable (b : Fin 32) (c : Fin 2) (h w : Fin 512)

/-- A cell word is not negative. -/
private theorem cellW_nonneg (x : EReal) : 0 ≤ (cellW x).toInt := by
  rw [cellW_toInt]
  exact Int.natCast_nonneg _

/-- A next-cell word is not negative. -/
private theorem cellW_succ_nonneg (x : EReal) : 0 ≤ (IntOp.addi (cellW x) 1#32).toInt := by
  rw [cellW_succ_toInt]
  exact Int.natCast_nonneg _

private theorem v28_at : val_main_v28 (F := Ideal) X (ix3 b h w) = cellW (X (ix4 b (0 : Fin 2) h w)) := by
  rw [val_main_v28_apply, val_main_v25_apply, val_main_v24_apply, val_main_c_8_apply, v12_at]
  exact wrap_nonneg _ _ (cellW_nonneg _)

private theorem v33_at : val_main_v33 (F := Ideal) X (ix3 b h w) = cellW (X (ix4 b (1 : Fin 2) h w)) := by
  rw [val_main_v33_apply, val_main_v30_apply, val_main_v29_apply, val_main_c_10_apply, v15_at]
  exact wrap_nonneg _ _ (cellW_nonneg _)

private theorem v42_at : val_main_v42 (F := Ideal) X (ix3 b h w) = cellW (X (ix4 b (0 : Fin 2) h w)) := by
  rw [val_main_v42_apply, val_main_v39_apply, val_main_v38_apply, val_main_c_12_apply, v12_at]
  exact wrap_nonneg _ _ (cellW_nonneg _)

private theorem v47_at : val_main_v47 (F := Ideal) X (ix3 b h w) = IntOp.addi (cellW (X (ix4 b (1 : Fin 2) h w))) 1#32 := by
  rw [val_main_v47_apply, val_main_v44_apply, val_main_v43_apply, val_main_c_14_apply, v23_at]
  exact wrap_nonneg _ _ (cellW_succ_nonneg _)

private theorem v56_at : val_main_v56 (F := Ideal) X (ix3 b h w) = IntOp.addi (cellW (X (ix4 b (0 : Fin 2) h w))) 1#32 := by
  rw [val_main_v56_apply, val_main_v53_apply, val_main_v52_apply, val_main_c_16_apply, v21_at]
  exact wrap_nonneg _ _ (cellW_succ_nonneg _)

private theorem v61_at : val_main_v61 (F := Ideal) X (ix3 b h w) = cellW (X (ix4 b (1 : Fin 2) h w)) := by
  rw [val_main_v61_apply, val_main_v58_apply, val_main_v57_apply, val_main_c_18_apply, v15_at]
  exact wrap_nonneg _ _ (cellW_nonneg _)

private theorem v70_at : val_main_v70 (F := Ideal) X (ix3 b h w) = IntOp.addi (cellW (X (ix4 b (0 : Fin 2) h w))) 1#32 := by
  rw [val_main_v70_apply, val_main_v67_apply, val_main_v66_apply, val_main_c_20_apply, v21_at]
  exact wrap_nonneg _ _ (cellW_succ_nonneg _)

private theorem v75_at : val_main_v75 (F := Ideal) X (ix3 b h w) = IntOp.addi (cellW (X (ix4 b (1 : Fin 2) h w))) 1#32 := by
  rw [val_main_v75_apply, val_main_v72_apply, val_main_v71_apply, val_main_c_22_apply, v23_at]
  exact wrap_nonneg _ _ (cellW_succ_nonneg _)

/-! ## The four lookups -/

/-- The lookup in the table at a pair of start indices that read signed as numbers k, l ≤ 250: the entry (0, c, k, l). -/
private theorem gat_at (I : IVec S32x512x512x2 32) (k l : ℕ) (hk : k ≤ 250) (hl : l ≤ 250)
    (h0 : (I (ix4 b h w (0 : Fin 2))).toInt = (k : ℤ)) (h1 : (I (ix4 b h w (1 : Fin 2))).toInt = (l : ℤ)) :
    Host.gather gather_S2x251x251_S32x512x512x2_S2x32x512x512_0_12_n_n_12_3_211 (val_main_v0 (F := Ideal) T) I (ix4 c b h w)
      = T (ix4 (0 : Fin 1) c (⟨k, by omega⟩ : Fin 251) (⟨l, by omega⟩ : Fin 251)) := by
  rw [gather_apply, val_main_v0_apply, clampFin _ k hk h0, clampFin _ l hl h1, idx0]

private theorem v36_0 : val_main_v36 (F := Ideal) X (ix4 b h w (0 : Fin 2)) = cellW (X (ix4 b (0 : Fin 2) h w)) := by
  unfold val_main_v36
  rw [pair_apply0, val_main_v34_apply, idx34, v28_at]

private theorem v36_1 : val_main_v36 (F := Ideal) X (ix4 b h w (1 : Fin 2)) = cellW (X (ix4 b (1 : Fin 2) h w)) := by
  unfold val_main_v36
  rw [pair_apply1, val_main_v35_apply, show idx_main_v35 (ix4 b h w (0 : Fin 1)) = ix3 b h w from idx34 b h w, v33_at]

private theorem v50_0 : val_main_v50 (F := Ideal) X (ix4 b h w (0 : Fin 2)) = cellW (X (ix4 b (0 : Fin 2) h w)) := by
  unfold val_main_v50
  rw [pair_apply0, val_main_v48_apply, show idx_main_v48 (ix4 b h w (0 : Fin 1)) = ix3 b h w from idx34 b h w, v42_at]

private theorem v50_1 : val_main_v50 (F := Ideal) X (ix4 b h w (1 : Fin 2)) = IntOp.addi (cellW (X (ix4 b (1 : Fin 2) h w))) 1#32 := by
  unfold val_main_v50
  rw [pair_apply1, val_main_v49_apply, show idx_main_v49 (ix4 b h w (0 : Fin 1)) = ix3 b h w from idx34 b h w, v47_at]

private theorem v64_0 : val_main_v64 (F := Ideal) X (ix4 b h w (0 : Fin 2)) = IntOp.addi (cellW (X (ix4 b (0 : Fin 2) h w))) 1#32 := by
  unfold val_main_v64
  rw [pair_apply0, val_main_v62_apply, show idx_main_v62 (ix4 b h w (0 : Fin 1)) = ix3 b h w from idx34 b h w, v56_at]

private theorem v64_1 : val_main_v64 (F := Ideal) X (ix4 b h w (1 : Fin 2)) = cellW (X (ix4 b (1 : Fin 2) h w)) := by
  unfold val_main_v64
  rw [pair_apply1, val_main_v63_apply, show idx_main_v63 (ix4 b h w (0 : Fin 1)) = ix3 b h w from idx34 b h w, v61_at]

private theorem v78_0 : val_main_v78 (F := Ideal) X (ix4 b h w (0 : Fin 2)) = IntOp.addi (cellW (X (ix4 b (0 : Fin 2) h w))) 1#32 := by
  unfold val_main_v78
  rw [pair_apply0, val_main_v76_apply, show idx_main_v76 (ix4 b h w (0 : Fin 1)) = ix3 b h w from idx34 b h w, v70_at]

private theorem v78_1 : val_main_v78 (F := Ideal) X (ix4 b h w (1 : Fin 2)) = IntOp.addi (cellW (X (ix4 b (1 : Fin 2) h w))) 1#32 := by
  unfold val_main_v78
  rw [pair_apply1, val_main_v77_apply, show idx_main_v77 (ix4 b h w (0 : Fin 1)) = ix3 b h w from idx34 b h w, v75_at]

/-- The lookup at (k, l). -/
private theorem v37_at : val_main_v37 (F := Ideal) X T (ix4 c b h w)
    = T (ix4 (0 : Fin 1) c (⟨cell (X (ix4 b (0 : Fin 2) h w)), by have := cell_le (X (ix4 b (0 : Fin 2) h w)); omega⟩ : Fin 251)
        (⟨cell (X (ix4 b (1 : Fin 2) h w)), by have := cell_le (X (ix4 b (1 : Fin 2) h w)); omega⟩ : Fin 251)) := by
  unfold val_main_v37
  exact gat_at T b c h w (val_main_v36 (F := Ideal) X) _ _ (by have := cell_le (X (ix4 b (0 : Fin 2) h w)); omega)
    (by have := cell_le (X (ix4 b (1 : Fin 2) h w)); omega) (by rw [v36_0, cellW_toInt]) (by rw [v36_1, cellW_toInt])

/-- The lookup at (k, l + 1). -/
private theorem v51_at : val_main_v51 (F := Ideal) X T (ix4 c b h w)
    = T (ix4 (0 : Fin 1) c (⟨cell (X (ix4 b (0 : Fin 2) h w)), by have := cell_le (X (ix4 b (0 : Fin 2) h w)); omega⟩ : Fin 251)
        (⟨cell (X (ix4 b (1 : Fin 2) h w)) + 1, by have := cell_le (X (ix4 b (1 : Fin 2) h w)); omega⟩ : Fin 251)) := by
  unfold val_main_v51
  exact gat_at T b c h w (val_main_v50 (F := Ideal) X) _ _ (by have := cell_le (X (ix4 b (0 : Fin 2) h w)); omega)
    (by have := cell_le (X (ix4 b (1 : Fin 2) h w)); omega) (by rw [v50_0, cellW_toInt]) (by rw [v50_1, cellW_succ_toInt])

/-- The lookup at (k + 1, l). -/
private theorem v65_at : val_main_v65 (F := Ideal) X T (ix4 c b h w)
    = T (ix4 (0 : Fin 1) c (⟨cell (X (ix4 b (0 : Fin 2) h w)) + 1, by have := cell_le (X (ix4 b (0 : Fin 2) h w)); omega⟩ : Fin 251)
        (⟨cell (X (ix4 b (1 : Fin 2) h w)), by have := cell_le (X (ix4 b (1 : Fin 2) h w)); omega⟩ : Fin 251)) := by
  unfold val_main_v65
  exact gat_at T b c h w (val_main_v64 (F := Ideal) X) _ _ (by have := cell_le (X (ix4 b (0 : Fin 2) h w)); omega)
    (by have := cell_le (X (ix4 b (1 : Fin 2) h w)); omega) (by rw [v64_0, cellW_succ_toInt]) (by rw [v64_1, cellW_toInt])

/-- The lookup at (k + 1, l + 1). -/
private theorem v79_at : val_main_v79 (F := Ideal) X T (ix4 c b h w)
    = T (ix4 (0 : Fin 1) c (⟨cell (X (ix4 b (0 : Fin 2) h w)) + 1, by have := cell_le (X (ix4 b (0 : Fin 2) h w)); omega⟩ : Fin 251)
        (⟨cell (X (ix4 b (1 : Fin 2) h w)) + 1, by have := cell_le (X (ix4 b (1 : Fin 2) h w)); omega⟩ : Fin 251)) := by
  unfold val_main_v79
  exact gat_at T b c h w (val_main_v78 (F := Ideal) X) _ _ (by have := cell_le (X (ix4 b (0 : Fin 2) h w)); omega)
    (by have := cell_le (X (ix4 b (1 : Fin 2) h w)); omega) (by rw [v78_0, cellW_succ_toInt]) (by rw [v78_1, cellW_succ_toInt])

/-! ## The four weights -/

/-- (1 − fa)(1 − fb), broadcast along the channels. -/
private theorem v93_at : val_main_v93 (F := Ideal) X (ix4 c b h w)
    = (one - frac (X (ix4 b (0 : Fin 2) h w))) * (one - frac (X (ix4 b (1 : Fin 2) h w))) := by
  rw [val_main_v93_apply, val_main_v92_apply, idx92, val_main_v84_apply, val_main_v81_apply, val_main_v83_apply,
    val_main_v80_apply, val_main_v82_apply, v17_at, v19_at]
  rfl

/-- (1 − fa) fb, broadcast along the channels. -/
private theorem v96_at : val_main_v96 (F := Ideal) X (ix4 c b h w)
    = (one - frac (X (ix4 b (0 : Fin 2) h w))) * frac (X (ix4 b (1 : Fin 2) h w)) := by
  rw [val_main_v96_apply, val_main_v95_apply, show idx_main_v95 (idx_main_v96 (ix4 c b h w)) = ix3 b h w from idx92 c b h w,
    val_main_v87_apply, val_main_v86_apply, val_main_v85_apply, v17_at, v19_at]
  rfl

/-- fa (1 − fb), broadcast along the channels. -/
private theorem v100_at : val_main_v100 (F := Ideal) X (ix4 c b h w)
    = frac (X (ix4 b (0 : Fin 2) h w)) * (one - frac (X (ix4 b (1 : Fin 2) h w))) := by
  rw [val_main_v100_apply, val_main_v99_apply, show idx_main_v99 (idx_main_v100 (ix4 c b h w)) = ix3 b h w from idx92 c b h w,
    val_main_v90_apply, val_main_v89_apply, val_main_v88_apply, v17_at, v19_at]
  rfl

/-- fa fb, broadcast along the channels. -/
private theorem v104_at : val_main_v104 (F := Ideal) X (ix4 c b h w)
    = frac (X (ix4 b (0 : Fin 2) h w)) * frac (X (ix4 b (1 : Fin 2) h w)) := by
  rw [val_main_v104_apply, val_main_v103_apply, show idx_main_v103 (idx_main_v104 (ix4 c b h w)) = ix3 b h w from idx92 c b h w,
    val_main_v91_apply, v17_at, v19_at]
  rfl

end Stages2

/-- The reference's last stage is `G` of the two arguments. -/
theorem ref_eq (X : (⟨S32x2x512x512, .f32⟩ : BufTy).Contents (Elt Ideal)) (T : (⟨S1x2x251x251, .f32⟩ : BufTy).Contents (Elt Ideal)) :
    val_main_v107 (F := Ideal) X T = G X T := by
  funext j
  obtain ⟨b, c, h, w, rfl⟩ : ∃ (b : Fin 32) (c : Fin 2) (h w : Fin 512), j = ix4 b c h w := ⟨j 0, j 1, j 2, j 3, eq_ix4 j⟩
  show _ = Gat X T b c h w
  rw [val_main_v107_apply, idx107, val_main_v106_apply, val_main_v102_apply, val_main_v98_apply, val_main_v94_apply,
    val_main_v97_apply, val_main_v101_apply, val_main_v105_apply, v37_at, v51_at, v65_at, v79_at, v93_at, v96_at, v100_at, v104_at]
  rfl

end Cert.ReferenceIdeal.RefValue

end
-- ==== Proof.Finite.lean ====
/-
  The precondition read: every entry of the table is a real number (the second conjunct of the printed predicate is
  "every |T[i]| < +∞", reduced with "and" over all entries).
-/
import proofs.«158236_j32693291057269_1_alg».proof.Defs
import proofs.«158236_j32693291057269_1_alg».proof.Proof.Gen.Pre_finite_inputs
import Idealize.ShloMosaic.Lib.ReduceAll
import Idealize.ShloMosaic.Lib.ValueIdx

noncomputable section

namespace Cert.Finite

open Idealize.ShloMosaic Idealize.ShloMosaic.TcCoe Idealize.ShloMosaic.ValueIdx Idealize.SL.Sem

/-- The rank-0 shape has exactly one index. -/
private instance : Subsingleton Cert.Pre_finite_inputs.S_.Idx := ⟨fun a b => funext fun d => d.elim0⟩

/-- The word 0x7F800000 (exponent all ones, significand zero, sign clear) denotes +∞. -/
private theorem inf_word : Ideal.ofBits .f32 0x7F800000#32 = (⊤ : EReal) := by
  simp [Ideal.ofBits, Ideal.ieee]

/-- A strict comparison of extended reals that answered 1 holds. -/
private theorem lt_of_cmp_olt {a b : EReal} (h : Ideal.cmp .olt a b = 1#1) : a < b := by
  by_contra hn
  have h0 : Ideal.cmp .olt a b = 0#1 := by simp [Ideal.cmp, hn]
  rw [h0] at h
  exact absurd h (by decide)

/-- Under the precondition every table entry is real. -/
theorem lut_real [hP : Cert.Pre_finite_inputs.Facts] (x : FVec Ideal Cert.Pre_finite_inputs.S32x2x512x512 .f32)
    (t : FVec Ideal Cert.Pre_finite_inputs.S1x2x251x251 .f32)
    (h : Cert.Pre_finite_inputs.fn (F := Ideal) x t = (fun _ => 1#1)) (i : Cert.Pre_finite_inputs.S1x2x251x251.Idx) :
    ∃ r : ℝ, (t i : EReal) = (r : EReal) := by
  -- the predicate's one result word is 1: both conjuncts are
  have h0 := congrFun h ValueIdx.ix0
  unfold Cert.Pre_finite_inputs.fn at h0
  dsimp only at h0
  obtain ⟨_, h2⟩ := IntOp.andi_eq_one.1 h0
  -- the second conjunct is an "and" over every table entry, so the comparison holds at entry i
  have hi := Host.reduce_andi_all _ _ _ _ _ h2 i
  -- read at i: |t i| = max (t i) (-(t i)) is strictly below +∞
  have hc : Ideal.cmp .olt (max (t i) (-(t i))) (Ideal.ofBits .f32 0x7F800000#32) = 1#1 := hi
  rw [inf_word] at hc
  have hlt : max (t i) (-(t i)) < (⊤ : EReal) := lt_of_cmp_olt hc
  obtain ⟨hpos, hneg⟩ := max_lt_iff.1 hlt
  -- t i < ⊤ excludes ⊤, -(t i) < ⊤ excludes ⊥; what is left is a real
  generalize t i = a at hpos hneg
  induction a using EReal.rec with
  | bot => exact absurd hneg (by simp)
  | top => exact absurd hpos (lt_irrefl _)
  | coe r => exact ⟨r, rfl⟩

end Cert.Finite

end
-- ==== Proof.lean ====
/-
  Bilinear lookup in a 251 × 251 table with two output channels, per pixel of 32 images of 512 × 512: the two input
  channels of a pixel are its coordinates a and b' in [0, 1]; each is scaled by 250, split into a cell k, l in [0, 249]
  and a fractional weight fa, fb; the result in channel c is
    T[c, k, l] (1 − fa)(1 − fb) + T[c, k, l+1] (1 − fa) fb + T[c, k+1, l] fa (1 − fb) + T[c, k+1, l+1] fa fb.
  The reference gathers the four corners and forms that sum. The kernel has no gather: per row of 512 pixels it builds
  two selectors over 256 candidate indices (1 − f at the cell, f at the next, zero elsewhere), contracts the padded,
  transposed table with the first on the matrix unit and multiplies by the second and sums — which keeps exactly the
  four corners, arranged as ((·)(1 − fa) + (·) fa)(1 − fb) + ((·)(1 − fa) + (·) fa) fb. On real numbers the two
  arrangements agree by distributivity; the precondition makes the table's entries real, and the clamp to [0, 1]
  makes the weights real whatever the coordinates.
  Modules: Scalar (the scalar functions, the two arrangements, the specification G), RowFn and RowValue (one row of the
  kernel body, and its value at a lane), HostIn and HostOut (the arrays around the region read at an index), Blocks (the
  grid's blocks to whole arrays), KernelValue (the kernel's run ends at G), Gather and RefValue (the reference is G),
  Finite (the table is real under the precondition).
-/
import proofs.«158236_j32693291057269_1_alg».proof.Defs
import proofs.«158236_j32693291057269_1_alg».proof.Proof.Gen.Kernel
import proofs.«158236_j32693291057269_1_alg».proof.Proof.Gen.Kernel.Skeleton
import proofs.«158236_j32693291057269_1_alg».proof.Proof.Gen.Kernel.Launch
import proofs.«158236_j32693291057269_1_alg».proof.Proof.Gen.Kernel.Points
import proofs.«158236_j32693291057269_1_alg».proof.Proof.Gen.Kernel.Frame
import proofs.«158236_j32693291057269_1_alg».proof.Proof.Gen.KernelIdeal
import proofs.«158236_j32693291057269_1_alg».proof.Proof.Gen.KernelIdeal.Skeleton
import proofs.«158236_j32693291057269_1_alg».proof.Proof.Gen.KernelIdeal.Launch
import proofs.«158236_j32693291057269_1_alg».proof.Proof.Gen.KernelIdeal.Points
import proofs.«158236_j32693291057269_1_alg».proof.Proof.Gen.KernelIdeal.Frame
import proofs.«158236_j32693291057269_1_alg».proof.Proof.Gen.ReferenceIdeal
import proofs.«158236_j32693291057269_1_alg».proof.Proof.Gen.Pre_finite_inputs
import proofs.«158236_j32693291057269_1_alg».proof.Proof.Gen.ReferenceIdeal.Run
import proofs.«158236_j32693291057269_1_alg».proof.Proof.Gen.ReferenceIdeal.Read
import proofs.«158236_j32693291057269_1_alg».proof.Proof.KernelValue
import proofs.«158236_j32693291057269_1_alg».proof.Proof.RefValue
import proofs.«158236_j32693291057269_1_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification of arguments that agree; the table is real under the precondition. -/
theorem algebraic : Cert.algebraic_KernelIdeal_ReferenceIdeal := by
  intro m ρ m' ρ' hpre hagree
  have hT : ∀ (c : Dev Cert.KernelIdeal.nD) (i : Cert.KernelIdeal.S1x2x251x251.Idx),
      ∃ r : ℝ, (m ((c.tc : Thread Cert.KernelIdeal.nD Cert.KernelIdeal.τ).loc Cert.KernelIdeal.main_arg1) : Cert.KernelIdeal.S1x2x251x251.Idx → EReal) i = (r : EReal) :=
    fun c i => Cert.Finite.lut_real _ _ (hpre c) i
  refine ⟨_, Cert.KernelIdeal.Whole.run m ρ hT, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v107_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
